-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x7 : Shape := ⟨2, ![65536, 7]⟩
abbrev S7x256 : Shape := ⟨2, ![7, 256]⟩
abbrev S256 : Shape := ⟨1, ![256]⟩
abbrev S256x256 : Shape := ⟨2, ![256, 256]⟩
abbrev S256x2695 : Shape := ⟨2, ![256, 2695]⟩
abbrev S2695 : Shape := ⟨1, ![2695]⟩
abbrev S_ : Shape := ⟨0, ![]⟩

class Facts : Prop where
  bcast_S_S65536x7 : S_.BroadcastsInDim S65536x7 (![] : Fin 0 → Fin S65536x7.rank)
  reducesTo_S65536x7_S_d0_1 : S65536x7.ReducesTo [0, 1] S_
  h_S_ : 0 < S_.numel
  bcast_S_S7x256 : S_.BroadcastsInDim S7x256 (![] : Fin 0 → Fin S7x256.rank)
  reducesTo_S7x256_S_d0_1 : S7x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2695 : S_.BroadcastsInDim S256x2695 (![] : Fin 0 → Fin S256x2695.rank)
  reducesTo_S256x2695_S_d0_1 : S256x2695.ReducesTo [0, 1] S_
  bcast_S_S2695 : S_.BroadcastsInDim S2695 (![] : Fin 0 → Fin S2695.rank)
  reducesTo_S2695_S_d0 : S2695.ReducesTo [0] S_

variable [Facts]

def fn_part3 {F : FTy → Type} [FloatOps F] (main_v48 : IVec S_ 1) (main_v49 : FVec F S2695 .f32) (main_v50 : FVec F S2695 .f32) : IVec S_ 1 :=
  let main_v51 : IVec S2695 1 := cmpf .olt main_v49 main_v50
  let main_c_19 : IVec S_ 1 := constantI S_ 1 1#1
  let main_v52 : IVec S_ 1 := (fun x v => Host.reduce IntOp.andi x v reducesTo_S2695_S_d0 h_S_) main_v51 main_c_19
  let main_v53 : IVec S_ 1 := andi main_v48 main_v52
  main_v53

def fn_part2 {F : FTy → Type} [FloatOps F] (main_arg7 : FVec F S256x256 .f32) (main_arg8 : FVec F S256 .f32) (main_arg9 : FVec F S256x2695 .f32) (main_arg10 : FVec F S2695 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x2695 .f32 := Host.absf main_arg9
  let main_cst_16 : FVec F S_ .f32 := constant S_ .f32 0x7F800000#32
  let main_v45 : FVec F S256x2695 .f32 := broadcastInDim S256x2695 ![] bcast_S_S256x2695 main_cst_16
  let main_v46 : IVec S256x2695 1 := cmpf .olt main_v44 main_v45
  let main_c_17 : IVec S_ 1 := constantI S_ 1 1#1
  let main_v47 : IVec S_ 1 := (fun x v => Host.reduce IntOp.andi x v reducesTo_S256x2695_S_d0_1 h_S_) main_v46 main_c_17
  let main_v48 : IVec S_ 1 := andi main_v43 main_v47
  let main_v49 : FVec F S2695 .f32 := Host.absf main_arg10
  let main_cst_18 : FVec F S_ .f32 := constant S_ .f32 0x7F800000#32
  let main_v50 : FVec F S2695 .f32 := broadcastInDim S2695 ![] bcast_S_S2695 main_cst_18
  fn_part3 (F := F) main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256x2695 .f32) (main_arg10 : FVec F S2695 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S65536x7 .f32) (main_arg1 : FVec F S7x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x2695 .f32) (main_arg10 : FVec F S2695 .f32) : IVec S_ 1 :=
  let main_v0 : FVec F S65536x7 .f32 := Host.absf main_arg0
  let main_cst : FVec F S_ .f32 := constant S_ .f32 0x7F800000#32
  let main_v1 : FVec F S65536x7 .f32 := broadcastInDim S65536x7 ![] bcast_S_S65536x7 main_cst
  let main_v2 : IVec S65536x7 1 := cmpf .olt main_v0 main_v1
  let main_c : IVec S_ 1 := constantI S_ 1 1#1
  let main_v3 : IVec S_ 1 := (fun x v => Host.reduce IntOp.andi x v reducesTo_S65536x7_S_d0_1 h_S_) main_v2 main_c
  let main_v4 : FVec F S7x256 .f32 := Host.absf main_arg1
  let main_cst_0 : FVec F S_ .f32 := constant S_ .f32 0x7F800000#32
  let main_v5 : FVec F S7x256 .f32 := broadcastInDim S7x256 ![] bcast_S_S7x256 main_cst_0
  let main_v6 : IVec S7x256 1 := cmpf .olt main_v4 main_v5
  let main_c_1 : IVec S_ 1 := constantI S_ 1 1#1
  let main_v7 : IVec S_ 1 := (fun x v => Host.reduce IntOp.andi x v reducesTo_S7x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_v13 main_v16
-- ==== Kernel.lean ====
abbrev S65536x7 : Shape := ⟨2, ![65536, 7]⟩
abbrev S7x256 : Shape := ⟨2, ![7, 256]⟩
abbrev S256 : Shape := ⟨1, ![256]⟩
abbrev S256x256 : Shape := ⟨2, ![256, 256]⟩
abbrev S256x2695 : Shape := ⟨2, ![256, 2695]⟩
abbrev S2695 : Shape := ⟨1, ![2695]⟩
abbrev S65536x2695 : Shape := ⟨2, ![65536, 2695]⟩
abbrev S1024x7 : Shape := ⟨2, ![1024, 7]⟩
abbrev S1024x2695 : Shape := ⟨2, ![1024, 2695]⟩
abbrev S1024x1 : Shape := ⟨2, ![1024, 1]⟩
abbrev S1024x256 : Shape := ⟨2, ![1024, 256]⟩
abbrev S1x256 : Shape := ⟨2, ![1, 256]⟩
abbrev S1x2695 : Shape := ⟨2, ![1, 2695]⟩
abbrev S1024x1225 : Shape := ⟨2, ![1024, 1225]⟩
abbrev S1024x490 : Shape := ⟨2, ![1024, 490]⟩
abbrev S65536x77x35 : Shape := ⟨3, ![65536, 77, 35]⟩

abbrev nBuf : Space → Nat
  | .hbm => 18
  | .vmem => 14
  | .smem => 0
  | _ => 0

abbrev bufTy : (tb : Table) → Fin (tcTables nBuf tb) → BufTy
  | .hbm, ⟨0, _⟩ => ⟨S65536x7, .f32⟩
  | .hbm, ⟨1, _⟩ => ⟨S7x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x2695, .f32⟩
  | .hbm, ⟨10, _⟩ => ⟨S2695, .f32⟩
  | .hbm, ⟨11, _⟩ => ⟨S7x256, .bf16⟩
  | .hbm, ⟨12, _⟩ => ⟨S256x256, .bf16⟩
  | .hbm, ⟨13, _⟩ => ⟨S256x256, .bf16⟩
  | .hbm, ⟨14, _⟩ => ⟨S256x256, .bf16⟩
  | .hbm, ⟨15, _⟩ => ⟨S256x2695, .bf16⟩
  | .hbm, ⟨16, _⟩ => ⟨S65536x2695, .f32⟩
  | .hbm, ⟨17, _⟩ => ⟨S65536x77x35, .f32⟩
  | .local _ .vmem, ⟨0, _⟩ => ⟨S1024x7, .f32⟩
  | .local _ .vmem, ⟨1, _⟩ => ⟨S1024x7, .f32⟩
  | .local _ .vmem, ⟨2, _⟩ => ⟨S7x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S256x2695, .bf16⟩
  | .local _ .vmem, ⟨11, _⟩ => ⟨S2695, .f32⟩
  | .local _ .vmem, ⟨12, _⟩ => ⟨S1024x2695, .f32⟩
  | .local _ .vmem, ⟨13, _⟩ => ⟨S1024x2695, .f32⟩
  | _, _ => ⟨S65536x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2695 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2695 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x2695 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  inb_S1024x7_S1024x7_0_0 : ∀ a, (![0, 0] : Fin 2 → Nat) a + S1024x7.size a ≤ S1024x7.size a
  h_S1024x7 : 0 < S1024x7.numel
  slices_S1024x7_o0_0_S1024x1 : S1024x7.Slices ![0, 0] S1024x1
  inb_S7x256_S7x256_0_0 : ∀ a, (![0, 0] : Fin 2 → Nat) a + S7x256.size a ≤ S7x256.size a
  h_S7x256 : 0 < S7x256.numel
  shapeCasts_S7x256_S7x256 : S7x256.ShapeCasts S7x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x2695_S256x2695_0_0 : ∀ a, (![0, 0] : Fin 2 → Nat) a + S256x2695.size a ≤ S256x2695.size a
  h_S256x2695 : 0 < S256x2695.numel
  shapeCasts_S256x2695_S256x2695 : S256x2695.ShapeCasts S256x2695
  inb_S2695_S2695_0 : ∀ a, (![0] : Fin 1 → Nat) a + S2695.size a ≤ S2695.size a
  h_S2695 : 0 < S2695.numel
  shapeCasts_S2695_S1x2695 : S2695.ShapeCasts S1x2695
  broadcasts_S1x2695_S1024x2695 : S1x2695.Broadcasts S1024x2695
  shapeCasts_S1024x1_S1024x1 : S1024x1.ShapeCasts S1024x1
  broadcasts_S1024x1_S1024x490 : S1024x1.Broadcasts S1024x490
  concatenates_S1024x1225_S1024x490_S1024x490_S1024x490_S1024x2695_d1 : Shape.Concatenates [S1024x1225, S1024x490, S1024x490, S1024x490] S1024x2695 1
  inb_S1024x2695_S1024x2695_0_0 : ∀ a, (![0, 0] : Fin 2 → Nat) a + S1024x2695.size a ≤ S1024x2695.size a
  h_S1024x2695 : 0 < S1024x2695.numel
  shapeCasts_S65536x2695_S65536x77x35 : S65536x2695.ShapeCasts S65536x77x35
  dot_S1024x7_S7x256_S1024x256_1_0_0_1_n_n_wf : DotDims.WF S1024x7 S7x256 S1024x256 [1] [0] [0] [1] [] []
  dot_S1024x256_S256x256_S1024x256_1_0_0_1_n_n_wf : DotDims.WF S1024x256 S256x256 S1024x256 [1] [0] [0] [1] [] []
  dot_S1024x256_S256x2695_S1024x2695_1_0_0_1_n_n_wf : DotDims.WF S1024x256 S256x2695 S1024x2695 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x7.size a ≤ S65536x7.size a
  hwx0_0 : ∀ i : grid0.Coords, EltTy.bits .f32 = 32 ∨ (Rect.block (s := S65536x7) S1024x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x256.size a ≤ S7x256.size a
  hwx0_1 : ∀ i : grid0.Coords, EltTy.bits .bf16 = 32 ∨ (Rect.block (s := S7x256) S7x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x2695.size a ≤ S256x2695.size a
  hwx0_9 : ∀ i : grid0.Coords, EltTy.bits .bf16 = 32 ∨ (Rect.block (s := S256x2695) S256x2695.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2695.size a ≤ S2695.size a
  hwx0_10 : ∀ i : grid0.Coords, EltTy.bits .f32 = 32 ∨ (Rect.block (s := S2695) S2695.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x2695.size a ≤ S65536x2695.size a
  hwx0_11 : ∀ i : grid0.Coords, EltTy.bits .f32 = 32 ∨ (Rect.block (s := S65536x2695) S1024x2695.size (cc0_transform_11 i) (hinb0_11 i)).WholeWords (EltTy.packing .f32)

variable [Facts₀]

def dot_S1024x7_S7x256_S1024x256_1_0_0_1_n_n : DotDims S1024x7 S7x256 S1024x256 where
  lhsContracting := [1]
  rhsContracting := [0]
  lhsNonContracting := [0]
  rhsNonContracting := [1]
  lhsBatch := []
  rhsBatch := []
  wf := dot_S1024x7_S7x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x2695_S1024x2695_1_0_0_1_n_n : DotDims S1024x256 S256x2695 S1024x2695 where
  lhsContracting := [1]
  rhsContracting := [0]
  lhsNonContracting := [0]
  rhsNonContracting := [1]
  lhsBatch := []
  rhsBatch := []
  wf := dot_S1024x256_S256x2695_S1024x2695_1_0_0_1_n_n_wf

abbrev win0_0 : Pipeline.Window sig grid0 :=
  Pipeline.Window.ofSpec (Memref.whole main_arg0) S1024x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S7x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x2695.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2695.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1024x2695.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x7 : Shape := ⟨2, ![65536, 7]⟩
abbrev S7x256 : Shape := ⟨2, ![7, 256]⟩
abbrev S256 : Shape := ⟨1, ![256]⟩
abbrev S256x256 : Shape := ⟨2, ![256, 256]⟩
abbrev S256x2695 : Shape := ⟨2, ![256, 2695]⟩
abbrev S2695 : Shape := ⟨1, ![2695]⟩
abbrev S65536x1 : Shape := ⟨2, ![65536, 1]⟩
abbrev S65536 : Shape := ⟨1, ![65536]⟩
abbrev S_ : Shape := ⟨0, ![]⟩
abbrev S65536x256 : Shape := ⟨2, ![65536, 256]⟩
abbrev S1x256 : Shape := ⟨2, ![1, 256]⟩
abbrev S65536x2695 : Shape := ⟨2, ![65536, 2695]⟩
abbrev S1x2695 : Shape := ⟨2, ![1, 2695]⟩
abbrev S65536x77x35 : Shape := ⟨3, ![65536, 77, 35]⟩
abbrev S65536x35 : Shape := ⟨2, ![65536, 35]⟩
abbrev S65536x14 : Shape := ⟨2, ![65536, 14]⟩
abbrev S65536x77 : Shape := ⟨2, ![65536, 77]⟩
abbrev S65536x77x1 : Shape := ⟨3, ![65536, 77, 1]⟩

abbrev nBuf : Space → Nat
  | .hbm => 113
  | .vmem => 0
  | .smem => 0
  | _ => 0

abbrev bufTy : (tb : Table) → Fin (tcTables nBuf tb) → BufTy
  | .hbm, ⟨0, _⟩ => ⟨S65536x7, .f32⟩
  | .hbm, ⟨1, _⟩ => ⟨S7x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x2695, .f32⟩
  | .hbm, ⟨10, _⟩ => ⟨S2695, .f32⟩
  | .hbm, ⟨11, _⟩ => ⟨S65536x1, .f32⟩
  | .hbm, ⟨12, _⟩ => ⟨S65536, .f32⟩
  | .hbm, ⟨13, _⟩ => ⟨S_, .f32⟩
  | .hbm, ⟨14, _⟩ => ⟨S65536, .f32⟩
  | .hbm, ⟨15, _⟩ => ⟨S65536, .f32⟩
  | .hbm, ⟨16, _⟩ => ⟨S_, .f32⟩
  | .hbm, ⟨17, _⟩ => ⟨S65536, .f32⟩
  | .hbm, ⟨18, _⟩ => ⟨S65536, .f32⟩
  | .hbm, ⟨19, _⟩ => ⟨S_, .f32⟩
  | .hbm, ⟨20, _⟩ => ⟨S65536, .f32⟩
  | .hbm, ⟨21, _⟩ => ⟨S65536, .f32⟩
  | .hbm, ⟨22, _⟩ => ⟨S65536, .f32⟩
  | .hbm, ⟨23, _⟩ => ⟨S65536, .f32⟩
  | .hbm, ⟨24, _⟩ => ⟨S_, .f32⟩
  | .hbm, ⟨25, _⟩ => ⟨S65536, .f32⟩
  | .hbm, ⟨26, _⟩ => ⟨S65536, .f32⟩
  | .hbm, ⟨27, _⟩ => ⟨S_, .f32⟩
  | .hbm, ⟨28, _⟩ => ⟨S65536, .f32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S_, .f32⟩
  | .hbm, ⟨34, _⟩ => ⟨S65536, .f32⟩
  | .hbm, ⟨35, _⟩ => ⟨S65536, .f32⟩
  | .hbm, ⟨36, _⟩ => ⟨S_, .f32⟩
  | .hbm, ⟨37, _⟩ => ⟨S65536, .f32⟩
  | .hbm, ⟨38, _⟩ => ⟨S65536, .f32⟩
  | .hbm, ⟨39, _⟩ => ⟨S65536, .f32⟩
  | .hbm, ⟨40, _⟩ => ⟨S65536, .f32⟩
  | .hbm, ⟨41, _⟩ => ⟨S65536, .f32⟩
  | .hbm, ⟨42, _⟩ => ⟨S65536x256, .f32⟩
  | .hbm, ⟨43, _⟩ => ⟨S1x256, .f32⟩
  | .hbm, ⟨44, _⟩ => ⟨S65536x256, .f32⟩
  | .hbm, ⟨45, _⟩ => ⟨S65536x256, .f32⟩
  | .hbm, ⟨46, _⟩ => ⟨S65536x256, .f32⟩
  | .hbm, ⟨47, _⟩ => ⟨S65536x256, .f32⟩
  | .hbm, ⟨48, _⟩ => ⟨S_, .f32⟩
  | .hbm, ⟨49, _⟩ => ⟨S65536x256, .f32⟩
  | .hbm, ⟨50, _⟩ => ⟨S65536x256, .f32⟩
  | .hbm, ⟨51, _⟩ => ⟨S_, .f32⟩
  | .hbm, ⟨52, _⟩ => ⟨S65536x256, .f32⟩
  | .hbm, ⟨53, _⟩ => ⟨S65536x256, .f32⟩
  | .hbm, ⟨54, _⟩ => ⟨S65536x256, .f32⟩
  | .hbm, ⟨55, _⟩ => ⟨S65536x256, .f32⟩
  | .hbm, ⟨56, _⟩ => ⟨S1x256, .f32⟩
  | .hbm, ⟨57, _⟩ => ⟨S65536x256, .f32⟩
  | .hbm, ⟨58, _⟩ => ⟨S65536x256, .f32⟩
  | .hbm, ⟨59, _⟩ => ⟨S65536x256, .f32⟩
  | .hbm, ⟨60, _⟩ => ⟨S65536x256, .f32⟩
  | .hbm, ⟨61, _⟩ => ⟨S_, .f32⟩
  | .hbm, ⟨62, _⟩ => ⟨S65536x256, .f32⟩
  | .hbm, ⟨63, _⟩ => ⟨S65536x256, .f32⟩
  | .hbm, ⟨64, _⟩ => ⟨S_, .f32⟩
  | .hbm, ⟨65, _⟩ => ⟨S65536x256, .f32⟩
  | .hbm, ⟨66, _⟩ => ⟨S65536x256, .f32⟩
  | .hbm, ⟨67, _⟩ => ⟨S65536x256, .f32⟩
  | .hbm, ⟨68, _⟩ => ⟨S65536x256, .f32⟩
  | .hbm, ⟨69, _⟩ => ⟨S1x256, .f32⟩
  | .hbm, ⟨70, _⟩ => ⟨S65536x256, .f32⟩
  | .hbm, ⟨71, _⟩ => ⟨S65536x256, .f32⟩
  | .hbm, ⟨72, _⟩ => ⟨S65536x256, .f32⟩
  | .hbm, ⟨73, _⟩ => ⟨S65536x256, .f32⟩
  | .hbm, ⟨74, _⟩ => ⟨S_, .f32⟩
  | .hbm, ⟨75, _⟩ => ⟨S65536x256, .f32⟩
  | .hbm, ⟨76, _⟩ => ⟨S65536x256, .f32⟩
  | .hbm, ⟨77, _⟩ => ⟨S_, .f32⟩
  | .hbm, ⟨78, _⟩ => ⟨S65536x256, .f32⟩
  | .hbm, ⟨79, _⟩ => ⟨S65536x256, .f32⟩
  | .hbm, ⟨80, _⟩ => ⟨S65536x256, .f32⟩
  | .hbm, ⟨81, _⟩ => ⟨S65536x256, .f32⟩
  | .hbm, ⟨82, _⟩ => ⟨S1x256, .f32⟩
  | .hbm, ⟨83, _⟩ => ⟨S65536x256, .f32⟩
  | .hbm, ⟨84, _⟩ => ⟨S65536x256, .f32⟩
  | .hbm, ⟨85, _⟩ => ⟨S65536x256, .f32⟩
  | .hbm, ⟨86, _⟩ => ⟨S65536x256, .f32⟩
  | .hbm, ⟨87, _⟩ => ⟨S_, .f32⟩
  | .hbm, ⟨88, _⟩ => ⟨S65536x256, .f32⟩
  | .hbm, ⟨89, _⟩ => ⟨S65536x256, .f32⟩
  | .hbm, ⟨90, _⟩ => ⟨S_, .f32⟩
  | .hbm, ⟨91, _⟩ => ⟨S65536x256, .f32⟩
  | .hbm, ⟨92, _⟩ => ⟨S65536x256, .f32⟩
  | .hbm, ⟨93, _⟩ => ⟨S65536x256, .f32⟩
  | .hbm, ⟨94, _⟩ => ⟨S65536x2695, .f32⟩
  | .hbm, ⟨95, _⟩ => ⟨S1x2695, .f32⟩
  | .hbm, ⟨96, _⟩ => ⟨S65536x2695, .f32⟩
  | .hbm, ⟨97, _⟩ => ⟨S65536x2695, .f32⟩
  | .hbm, ⟨98, _⟩ => ⟨S65536x77x35, .f32⟩
  | .hbm, ⟨99, _⟩ => ⟨S_, .f32⟩
  | .hbm, ⟨100, _⟩ => ⟨S65536, .f32⟩
  | .hbm, ⟨101, _⟩ => ⟨S65536x1, .f32⟩
  | .hbm, ⟨102, _⟩ => ⟨S65536x35, .f32⟩
  | .hbm, ⟨103, _⟩ => ⟨S65536x1, .f32⟩
  | .hbm, ⟨104, _⟩ => ⟨S65536x14, .f32⟩
  | .hbm, ⟨105, _⟩ => ⟨S65536x1, .f32⟩
  | .hbm, ⟨106, _⟩ => ⟨S65536x14, .f32⟩
  | .hbm, ⟨107, _⟩ => ⟨S65536x1, .f32⟩
  | .hbm, ⟨108, _⟩ => ⟨S65536x14, .f32⟩
  | .hbm, ⟨109, _⟩ => ⟨S65536x77, .f32⟩
  | .hbm, ⟨110, _⟩ => ⟨S65536x77x1, .f32⟩
  | .hbm, ⟨111, _⟩ => ⟨S65536x77x35, .f32⟩
  | .hbm, ⟨112, _⟩ => ⟨S65536x77x35, .f32⟩
  | _, _ => ⟨S65536x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_call1_v0 : Ref sig .tc := ⟨.hbm, 59, rfl⟩
abbrev main_call1_v1 : Ref sig .tc := ⟨.hbm, 60, rfl⟩
abbrev main_call1_cst : Ref sig .tc := ⟨.hbm, 61, rfl⟩
abbrev main_call1_v2 : Ref sig .tc := ⟨.hbm, 62, rfl⟩
abbrev main_call1_v3 : Ref sig .tc := ⟨.hbm, 63, rfl⟩
abbrev main_call1_cst_0 : Ref sig .tc := ⟨.hbm, 64, rfl⟩
abbrev main_call1_v4 : Ref sig .tc := ⟨.hbm, 65, rfl⟩
abbrev main_call1_v5 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_call2_v0 : Ref sig .tc := ⟨.hbm, 72, rfl⟩
abbrev main_call2_v1 : Ref sig .tc := ⟨.hbm, 73, rfl⟩
abbrev main_call2_cst : Ref sig .tc := ⟨.hbm, 74, rfl⟩
abbrev main_call2_v2 : Ref sig .tc := ⟨.hbm, 75, rfl⟩
abbrev main_call2_v3 : Ref sig .tc := ⟨.hbm, 76, rfl⟩
abbrev main_call2_cst_0 : Ref sig .tc := ⟨.hbm, 77, rfl⟩
abbrev main_call2_v4 : Ref sig .tc := ⟨.hbm, 78, rfl⟩
abbrev main_call2_v5 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_7 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩

abbrev nD : Nat := 1
abbrev τ : Topo := Topo.v7x

variable {F : FTy → Type} [FloatOps F]

class Facts₀ : Prop where
  slices_S65536x7_S65536x1_0_0 : S65536x7.Slices ![0, 0] S65536x1
  shapeCasts_S65536x1_S65536 : S65536x1.ShapeCasts S65536
  bcast_S_S65536 : S_.BroadcastsInDim S65536 (![] : Fin 0 → Fin S65536.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S2695_S1x2695_1 : S2695.BroadcastsInDim S1x2695 (![1] : Fin 1 → Fin S1x2695.rank)
  bcast_S1x2695_S65536x2695_0_1 : S1x2695.BroadcastsInDim S65536x2695 (![0, 1] : Fin 2 → Fin S65536x2695.rank)
  shapeCasts_S65536x2695_S65536x77x35 : S65536x2695.ShapeCasts S65536x77x35
  bcast_S65536_S65536x1_0 : S65536.BroadcastsInDim S65536x1 (![0] : Fin 1 → Fin S65536x1.rank)
  bcast_S65536x1_S65536x35_0_1 : S65536x1.BroadcastsInDim S65536x35 (![0, 1] : Fin 2 → Fin S65536x35.rank)
  bcast_S65536x1_S65536x14_0_1 : S65536x1.BroadcastsInDim S65536x14 (![0, 1] : Fin 2 → Fin S65536x14.rank)
  concatenates_S65536x35_S65536x14_S65536x14_S65536x14_S65536x77_d1 : Shape.Concatenates [S65536x35, S65536x14, S65536x14, S65536x14] S65536x77 1
  bcast_S65536x77_S65536x77x1_0_1 : S65536x77.BroadcastsInDim S65536x77x1 (![0, 1] : Fin 2 → Fin S65536x77x1.rank)
  bcast_S65536x77x1_S65536x77x35_0_1_2 : S65536x77x1.BroadcastsInDim S65536x77x35 (![0, 1, 2] : Fin 3 → Fin S65536x77x35.rank)
  dot_S65536x7_S7x256_S65536x256_1_0_0_1_n_n_wf : DotDims.WF S65536x7 S7x256 S65536x256 [1] [0] [0] [1] [] []
  dot_S65536x256_S256x256_S65536x256_1_0_0_1_n_n_wf : DotDims.WF S65536x256 S256x256 S65536x256 [1] [0] [0] [1] [] []
  dot_S65536x256_S256x2695_S65536x2695_1_0_0_1_n_n_wf : DotDims.WF S65536x256 S256x2695 S65536x2695 [1] [0] [0] [1] [] []

variable [Facts₀]

def dot_S65536x7_S7x256_S65536x256_1_0_0_1_n_n : DotDims S65536x7 S7x256 S65536x256 where
  lhsContracting := [1]
  rhsContracting := [0]
  lhsNonContracting := [0]
  rhsNonContracting := [1]
  lhsBatch := []
  rhsBatch := []
  wf := dot_S65536x7_S7x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x2695_S65536x2695_1_0_0_1_n_n : DotDims S65536x256 S256x2695 S65536x2695 where
  lhsContracting := [1]
  rhsContracting := [0]
  lhsNonContracting := [0]
  rhsNonContracting := [1]
  lhsBatch := []
  rhsBatch := []
  wf := dot_S65536x256_S256x2695_S65536x2695_1_0_0_1_n_n_wf

class Facts : Prop extends Facts₀ where

variable [Facts]
-- ==== Proof.Spec.lean ====
/-
  The network both programs compute, written one batch row at a time.

  A row x ∈ ℝ̄⁷ goes through four dense layers with the SiLU activation, z ↦ z · σ(z) with σ(z) = 1 / (1 + e^(−z)),

      h¹ = silu (x W⁰ + b⁰),  h² = silu (h¹ W¹ + b¹),  h³ = silu (h² W² + b²),  h⁴ = silu (h³ W³ + b³),

  and a last dense layer into 2695 = 77 · 35 columns, heads = h⁴ Wʰ + bʰ.  Column j belongs to head j / 35.  Each column is
  then scaled by a profile of λ = x₀ alone: 1 for the first 35 heads (columns below 1225), 1 − s for the next 14 (below
  1715), s for the next 14 (below 2205) and e^(−t²) for the last 14, where s = σ(5 (λ − 0) / 0.15) and t = (λ − 0) / 0.2.
  The literals are kept as the words the programs print; only the words of 0 and 1 are ever read as numbers.

  Everything is over the extended reals with the ideal instance's operations, so that the idealized kernel's payload and
  the idealized reference's stages both unfold to these terms.
-/
import Idealize.ShloMosaic.PureOps.Ideal
import Idealize.ShloMosaic.PureOps.Ideal.Laws
import Idealize.ShloMosaic.Lib.ValueIdx

noncomputable section

open scoped BigOperators

namespace Cert.HeadsSpec

open Idealize.ShloMosaic Idealize.ShloMosaic.ValueIdx

/-! ## The literals -/

/-- The word of 0.0. -/
abbrev w0 : EReal := Ideal.ofBits .f32 0x00000000#32
/-- The word of 1.0. -/
abbrev w1 : EReal := Ideal.ofBits .f32 0x3F800000#32
/-- The word of 5.0. -/
abbrev w5 : EReal := Ideal.ofBits .f32 0x40A00000#32
/-- The word of the transition width 0.15 (as a float). -/
abbrev wT : EReal := Ideal.ofBits .f32 0x3E19999A#32
/-- The word of the neck width 0.2 (as a float). -/
abbrev wN : EReal := Ideal.ofBits .f32 0x3E4CCCCD#32

/-- The word of 1.0 denotes the real number one. -/
theorem w1_eq : w1 = 1 := IdealRules.sign_bit.ideal_onePat .f32
/-- The word of 0.0 denotes zero. -/
theorem w0_eq : w0 = 0 := Ideal.ofBits_zero_f32

/-! ## One dense layer and the activation -/

/-- A dense layer on one row: column j of a W + b. -/
def dense {K N : Nat} (a : Fin K → EReal) (W : (⟨2, ![K, N]⟩ : Shape).Idx → EReal) (b : (⟨1, ![N]⟩ : Shape).Idx → EReal)
    (j : Fin N) : EReal :=
  (∑ k : Fin K, a k * W (ix2 k j)) + b (ix1 j)

/-- SiLU: z · σ(z). -/
def silu (z : EReal) : EReal := z * Ideal.logistic z

/-- The logistic function spelt with the word of 1.0, as a host expands it: 1 / (1 + e^(−z)). -/
theorem logistic_spelt (z : EReal) : Ideal.div w1 (w1 + Ideal.exp (-z)) = Ideal.logistic z := by
  rw [w1_eq]; rfl

/-- SiLU with the logistic function expanded. -/
theorem silu_spelt (z : EReal) : z * Ideal.div w1 (w1 + Ideal.exp (-z)) = silu z := by
  rw [logistic_spelt]; rfl

/-- A dense layer followed by SiLU. -/
def act {K N : Nat} (a : Fin K → EReal) (W : (⟨2, ![K, N]⟩ : Shape).Idx → EReal) (b : (⟨1, ![N]⟩ : Shape).Idx → EReal)
    (j : Fin N) : EReal :=
  silu (dense a W b j)

/-! ## The profiles of λ -/

/-- s = σ(5 (λ − 0) / 0.15). -/
def gate (lam : EReal) : EReal := Ideal.logistic (Ideal.div (w5 * (lam - w0)) wT)
/-- 1 − s. -/
def leftProf (lam : EReal) : EReal := w1 - gate lam
/-- e^(−t²) with t = (λ − 0) / 0.2, written (0 − t) · t as the kernel subtracts from a zero vector. -/
def neckProf (lam : EReal) : EReal :=
  Ideal.exp ((w0 - Ideal.div (lam - w0) wN) * Ideal.div (lam - w0) wN)

/-- The same with the negation a host writes. -/
theorem neckProf_neg (lam : EReal) :
    Ideal.exp (-(Ideal.div (lam - w0) wN) * Ideal.div (lam - w0) wN) = neckProf lam := by
  unfold neckProf; rw [w0_eq, zero_sub]

/-- The scale of column j: by the head j / 35 it belongs to. -/
def scale (lam : EReal) (j : Nat) : EReal :=
  if j < 1225 then w1 else if j < 1715 then leftProf lam else if j < 2205 then gate lam else neckProf lam

/-- The scale of head h (the reference's [B, 77] array before it is spread over a head's 35 columns). -/
def headScale (lam : EReal) (h : Nat) : EReal :=
  if h < 35 then w1 else if h < 49 then leftProf lam else if h < 63 then gate lam else neckProf lam

/-- A column's scale is its head's. -/
theorem scale_of_head (lam : EReal) (h o : Nat) (ho : o < 35) : scale lam (h * 35 + o) = headScale lam h := by
  unfold scale headScale
  have e1 : (h * 35 + o < 1225) = (h < 35) := propext ⟨fun _ => by omega, fun _ => by omega⟩
  have e2 : (h * 35 + o < 1715) = (h < 49) := propext ⟨fun _ => by omega, fun _ => by omega⟩
  have e3 : (h * 35 + o < 2205) = (h < 63) := propext ⟨fun _ => by omega, fun _ => by omega⟩
  simp only [e1, e2, e3]

/-! ## A row of the result -/

section Row
variable (W0 : (⟨2, ![7, 256]⟩ : Shape).Idx → EReal) (b0 : (⟨1, ![256]⟩ : Shape).Idx → EReal)
  (W1 : (⟨2, ![256, 256]⟩ : Shape).Idx → EReal) (b1 : (⟨1, ![256]⟩ : Shape).Idx → EReal)
  (W2 : (⟨2, ![256, 256]⟩ : Shape).Idx → EReal) (b2 : (⟨1, ![256]⟩ : Shape).Idx → EReal)
  (W3 : (⟨2, ![256, 256]⟩ : Shape).Idx → EReal) (b3 : (⟨1, ![256]⟩ : Shape).Idx → EReal)
  (Wh : (⟨2, ![256, 2695]⟩ : Shape).Idx → EReal) (bh : (⟨1, ![2695]⟩ : Shape).Idx → EReal)

/-- The first two hidden layers of a row. -/
def hidden2 (x : Fin 7 → EReal) : Fin 256 → EReal := act (act x W0 b0) W1 b1
/-- All four hidden layers of a row. -/
def hidden4 (x : Fin 7 → EReal) : Fin 256 → EReal := act (act (hidden2 W0 b0 W1 b1 x) W2 b2) W3 b3
/-- The 2695 head outputs of a row, before scaling. -/
def heads (x : Fin 7 → EReal) : Fin 2695 → EReal := dense (hidden4 W0 b0 W1 b1 W2 b2 W3 b3 x) Wh bh
/-- Column j of a row of the result: the head output times its profile of λ = x₀. -/
def outRow (x : Fin 7 → EReal) (j : Fin 2695) : EReal :=
  heads W0 b0 W1 b1 W2 b2 W3 b3 Wh bh x j * scale (x 0) j.val

/-- The result as a [65536, 2695] array of the input array and the weights. -/
def outFlat (X : (⟨2, ![65536, 7]⟩ : Shape).Idx → EReal) : (⟨2, ![65536, 2695]⟩ : Shape).Idx → EReal :=
  fun i => outRow W0 b0 W1 b1 W2 b2 W3 b3 Wh bh (fun k => X (ix2 (i 0) k)) (i 1)

/-- The column of the flat array that holds entry (h, o) of a row. -/
abbrev col (h : Fin 77) (o : Fin 35) : Fin 2695 := ⟨h.val * 35 + o.val, by have := h.isLt; have := o.isLt; omega⟩

/-- The result as the [65536, 77, 35] array both programs return: entry (r, h, o) is column 35 h + o of row r. -/
def out3 (X : (⟨2, ![65536, 7]⟩ : Shape).Idx → EReal) : (⟨3, ![65536, 77, 35]⟩ : Shape).Idx → EReal :=
  fun i => outFlat W0 b0 W1 b1 W2 b2 W3 b3 Wh bh X (ix2 (i 0) (col (i 1) (i 2)))

end Row

end Cert.HeadsSpec

end
-- ==== Proof.LibConcatCols.lean ====
/-
  Matrices laid side by side, read at an element.

  A concatenation of matrices [N, m₀], [N, m₁], … along the column axis is the [N, m₀ + m₁ + …] matrix whose column k is
  column k − (m₀ + … + m_{p−1}) of the piece p whose span of columns holds k.  Stated for any list of pieces (the piece and the
  widths before it given), for three pieces, and for a list of single-column pieces, where column k is piece k.  Last, the
  result of an operation with a list of operands, as the operation's function of the operands' contents.
-/
import Idealize.ShloMosaic.PureOps
import Idealize.ShloMosaic.Lib.ValueIdx
import Idealize.ShloMosaic.Lib.Pipeline.Value
import Idealize.ShloMosaic.Lib.StableHlo.Run

namespace Cert.LibConcatCols

open Idealize.ShloMosaic Idealize.ShloMosaic.ValueIdx

variable {α : Type}

/-- ANY PIECES: piece p of the list is an [N, m] matrix x, the pieces before it are `pre` columns wide together, and column k
    lies in its span; then the joined matrix at (e, k) is x at (e, k − pre). -/
theorem cols_piece {N M : Nat} (xs : List ((s : Shape) × (s.Idx → α)))
    (h : Shape.Concatenates (xs.map (·.1)) ⟨2, ![N, M]⟩ 1) (e : Fin N) (k : Fin M)
    (p : Nat) (hp : p < xs.length) (m : Nat) (x : (⟨2, ![N, m]⟩ : Shape).Idx → α) (hx : xs[p] = ⟨⟨2, ![N, m]⟩, x⟩)
    (pre : Nat)
    (hpre : (((xs.take p).map (·.1)).map fun s =>
      if h : s.rank = (⟨2, ![N, M]⟩ : Shape).rank then s.size ((1 : Fin 2).cast h.symm) else 0).sum = pre)
    (hlo : pre ≤ k.val) (hhi : k.val - pre < m) :
    concatenate ⟨2, ![N, M]⟩ 1 xs h (ix2 e k) = x (ix2 e ⟨k.val - pre, hhi⟩) :=
  concatenate_apply_piece (1 : Fin 2) xs h (ix2 e k) p hp ⟨2, ![N, m]⟩ x hx rfl pre hpre (ix2 e ⟨k.val - pre, hhi⟩)
    (fun b hb => match b, hb with | ⟨0, _⟩, _ => rfl | ⟨1, _⟩, hb => absurd rfl hb)
    (by show pre + (k.val - pre) = k.val; omega)

/-- THREE PIECES of widths m₁, m₂, m₃: a column below m₁ reads the first piece … -/
theorem cols3_first {N M m₁ m₂ m₃ : Nat} (x₁ : (⟨2, ![N, m₁]⟩ : Shape).Idx → α) (x₂ : (⟨2, ![N, m₂]⟩ : Shape).Idx → α)
    (x₃ : (⟨2, ![N, m₃]⟩ : Shape).Idx → α)
    (h : Shape.Concatenates [⟨2, ![N, m₁]⟩, ⟨2, ![N, m₂]⟩, ⟨2, ![N, m₃]⟩] ⟨2, ![N, M]⟩ 1) (e : Fin N) (k : Fin M) (hk : k.val < m₁) :
    concatenate ⟨2, ![N, M]⟩ 1 [⟨⟨2, ![N, m₁]⟩, x₁⟩, ⟨⟨2, ![N, m₂]⟩, x₂⟩, ⟨⟨2, ![N, m₃]⟩, x₃⟩] h (ix2 e k) = x₁ (ix2 e ⟨k.val, hk⟩) :=
  cols_piece [⟨⟨2, ![N, m₁]⟩, x₁⟩, ⟨⟨2, ![N, m₂]⟩, x₂⟩, ⟨⟨2, ![N, m₃]⟩, x₃⟩] h e k 0 (by simp) m₁ x₁ rfl 0 rfl (Nat.zero_le _) hk

/-- … a column in [m₁, m₁ + m₂) the second, m₁ columns to the left … -/
theorem cols3_second {N M m₁ m₂ m₃ : Nat} (x₁ : (⟨2, ![N, m₁]⟩ : Shape).Idx → α) (x₂ : (⟨2, ![N, m₂]⟩ : Shape).Idx → α)
    (x₃ : (⟨2, ![N, m₃]⟩ : Shape).Idx → α)
    (h : Shape.Concatenates [⟨2, ![N, m₁]⟩, ⟨2, ![N, m₂]⟩, ⟨2, ![N, m₃]⟩] ⟨2, ![N, M]⟩ 1) (e : Fin N) (k : Fin M)
    (h1 : m₁ ≤ k.val) (h2 : k.val - m₁ < m₂) :
    concatenate ⟨2, ![N, M]⟩ 1 [⟨⟨2, ![N, m₁]⟩, x₁⟩, ⟨⟨2, ![N, m₂]⟩, x₂⟩, ⟨⟨2, ![N, m₃]⟩, x₃⟩] h (ix2 e k)
      = x₂ (ix2 e ⟨k.val - m₁, h2⟩) :=
  cols_piece [⟨⟨2, ![N, m₁]⟩, x₁⟩, ⟨⟨2, ![N, m₂]⟩, x₂⟩, ⟨⟨2, ![N, m₃]⟩, x₃⟩] h e k 1 (by simp) m₂ x₂ rfl m₁ (by simp) h1 h2

/-- … and a column from m₁ + m₂ on the third, m₁ + m₂ columns to the left. -/
theorem cols3_third {N M m₁ m₂ m₃ : Nat} (x₁ : (⟨2, ![N, m₁]⟩ : Shape).Idx → α) (x₂ : (⟨2, ![N, m₂]⟩ : Shape).Idx → α)
    (x₃ : (⟨2, ![N, m₃]⟩ : Shape).Idx → α)
    (h : Shape.Concatenates [⟨2, ![N, m₁]⟩, ⟨2, ![N, m₂]⟩, ⟨2, ![N, m₃]⟩] ⟨2, ![N, M]⟩ 1) (e : Fin N) (k : Fin M)
    (h1 : m₁ + m₂ ≤ k.val) (h2 : k.val - (m₁ + m₂) < m₃) :
    concatenate ⟨2, ![N, M]⟩ 1 [⟨⟨2, ![N, m₁]⟩, x₁⟩, ⟨⟨2, ![N, m₂]⟩, x₂⟩, ⟨⟨2, ![N, m₃]⟩, x₃⟩] h (ix2 e k)
      = x₃ (ix2 e ⟨k.val - (m₁ + m₂), h2⟩) :=
  cols_piece [⟨⟨2, ![N, m₁]⟩, x₁⟩, ⟨⟨2, ![N, m₂]⟩, x₂⟩, ⟨⟨2, ![N, m₃]⟩, x₃⟩] h e k 2 (by simp) m₃ x₃ rfl (m₁ + m₂) (by simp) h1 h2

/-- Single-column pieces are one column wide each: the widths of the first few add up to their number. -/
theorem unit_widths_sum {N M : Nat} : ∀ l : List ((⟨2, ![N, 1]⟩ : Shape).Idx → α),
    (((l.map fun y => (⟨⟨2, ![N, 1]⟩, y⟩ : (s : Shape) × (s.Idx → α))).map (·.1)).map fun s =>
      if h : s.rank = (⟨2, ![N, M]⟩ : Shape).rank then s.size ((1 : Fin 2).cast h.symm) else 0).sum = l.length
  | [] => rfl
  | y :: l => by
    rw [List.map_cons, List.map_cons, List.map_cons, List.sum_cons, unit_widths_sum l, List.length_cons]
    exact Nat.add_comm 1 l.length

/-- SINGLE-COLUMN PIECES: the matrix joined from the columns `ys` has, at (e, k), column k at (e, 0). -/
theorem cols_unit {N M : Nat} (ys : List ((⟨2, ![N, 1]⟩ : Shape).Idx → α))
    (h : Shape.Concatenates ((ys.map fun y => (⟨⟨2, ![N, 1]⟩, y⟩ : (s : Shape) × (s.Idx → α))).map (·.1)) ⟨2, ![N, M]⟩ 1)
    (e : Fin N) (k : Fin M) (hk : k.val < ys.length) :
    concatenate ⟨2, ![N, M]⟩ 1 (ys.map fun y => ⟨⟨2, ![N, 1]⟩, y⟩) h (ix2 e k) = ys[k.val] (ix2 e (0 : Fin 1)) := by
  have hp : k.val < (ys.map fun y => (⟨⟨2, ![N, 1]⟩, y⟩ : (s : Shape) × (s.Idx → α))).length := by
    rw [List.length_map]; exact hk
  have hpre := unit_widths_sum (α := α) (N := N) (M := M) (ys.take k.val)
  rw [List.length_take, Nat.min_eq_left (Nat.le_of_lt hk), List.map_take] at hpre
  refine (cols_piece _ h e k k.val hp 1 ys[k.val] (List.getElem_map _) k.val hpre (Nat.le_refl _) (by omega)).trans ?_
  refine congrArg ys[k.val] (funext fun b => ?_)
  match b with
  | ⟨0, _⟩ => rfl
  | ⟨1, _⟩ => exact Fin.ext (by show k.val - k.val = 0; omega)

/-! ## An operation with a list of operands -/

section Nary
open Idealize.ShloMosaic.StableHlo
variable {τ : Topo} {sig : RefSig} {Val : EltTy → Type}

/-- The result of an operation over a family of operand buffers, with the operands' contents spelt out: `g` is the operation's
    function at the operands' contents (for a literal family `![r₀, r₁, …]` and a function `fun u => F (u 0) (u 1) …` the
    equation `hg` holds by `rfl`: the family at the literal k is r_k). -/
theorem nary_result_spelt {n : Nat} (xs : Fin n → Ref sig .tc) (y : Ref sig .tc)
    (f : ((k : Fin n) → (xs k).ty.Contents Val) → y.ty.Contents Val) (hxs hy) (V : Valuation τ sig Val)
    (g : y.ty.Contents Val) (hg : f (fun k => V (Proc.devRef .tc (xs k))) = g) :
    (nary (τ := τ) xs y f hxs hy).result V (Proc.devRef .tc y) = g :=
  (nary_result xs y f hxs hy V).trans hg

end Nary

end Cert.LibConcatCols
-- ==== Proof.KerPayload.lean ====
/-
  What the idealized kernel body stores for one tile of 1024 rows, entry by entry.

  The body's one store writes heads · scale for its tile.  Read at entry (p, q) of the tile it is the row function of
  Proof/Spec.lean applied to row p of the tile's input block: each tpu.matmul into a zero accumulator is the plain sum over
  the contracted axis, a bias row spread down the tile reads the bias at the column, the changes of float format are the
  identity on extended reals, tpu.logistic is the logistic function, and the scale matrix laid side by side from a block of
  ones and three spread columns reads, at column q, the piece whose span of columns holds q.
-/
import proofs.«105025_j16518444220506_1_alg».proof.Proof.Gen.KernelIdeal.Skeleton
import proofs.«105025_j16518444220506_1_alg».proof.Proof.Spec
import proofs.«105025_j16518444220506_1_alg».proof.Proof.LibConcatCols
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Cert.HeadsSpec Cert.LibConcatCols
open Idealize.ShloMosaic Idealize.ShloMosaic.ValueIdx

/-! ## The three matrix products and the bias rows -/

/-! ### The product [1024, 7] · [7, 256] -/

theorem lhsA_0 (i : S1024x256.Idx) (q : dot_S1024x7_S7x256_S1024x256_1_0_0_1_n_n.contr.Idx) :
    (dot_S1024x7_S7x256_S1024x256_1_0_0_1_n_n.lhsIdx i q 0).val = (i 0).val := by
  unfold DotDims.lhsIdx
  rw [dif_neg (show ¬(0 : Fin S1024x7.rank) ∈ dot_S1024x7_S7x256_S1024x256_1_0_0_1_n_n.lhsBatch by decide), dif_pos (show (0 : Fin S1024x7.rank) ∈ dot_S1024x7_S7x256_S1024x256_1_0_0_1_n_n.lhsNonContracting by decide)]
  rfl
theorem lhsA_1 (i : S1024x256.Idx) (q : dot_S1024x7_S7x256_S1024x256_1_0_0_1_n_n.contr.Idx) :
    (dot_S1024x7_S7x256_S1024x256_1_0_0_1_n_n.lhsIdx i q 1).val = (q ⟨0, by decide⟩).val :=
  dot_S1024x7_S7x256_S1024x256_1_0_0_1_n_n.lhsIdx_val_of_single rfl i q
theorem rhsA_0 (i : S1024x256.Idx) (q : dot_S1024x7_S7x256_S1024x256_1_0_0_1_n_n.contr.Idx) :
    (dot_S1024x7_S7x256_S1024x256_1_0_0_1_n_n.rhsIdx i q 0).val = (q ⟨0, by decide⟩).val :=
  dot_S1024x7_S7x256_S1024x256_1_0_0_1_n_n.rhsIdx_val_of_single rfl i q
theorem rhsA_1 (i : S1024x256.Idx) (q : dot_S1024x7_S7x256_S1024x256_1_0_0_1_n_n.contr.Idx) :
    (dot_S1024x7_S7x256_S1024x256_1_0_0_1_n_n.rhsIdx i q 1).val = (i 1).val := by
  unfold DotDims.rhsIdx
  rw [dif_neg (show ¬(1 : Fin S7x256.rank) ∈ dot_S1024x7_S7x256_S1024x256_1_0_0_1_n_n.rhsBatch by decide), dif_pos (show (1 : Fin S7x256.rank) ∈ dot_S1024x7_S7x256_S1024x256_1_0_0_1_n_n.rhsNonContracting by decide)]
  rfl

/-- The matrix unit's product into a zero accumulator, at entry (p, j): the sum over k of A(p, k) · B(k, j). -/
theorem matmulA_apply (A : FVec Ideal S1024x7 .bf16) (B : FVec Ideal S7x256 .bf16) (p : Fin 1024) (j : Fin 256) :
    matmul dot_S1024x7_S7x256_S1024x256_1_0_0_1_n_n none A B (constant S1024x256 .f32 0x00000000#32) (ix2 p j)
      = ∑ k : Fin 7, A (ix2 p k) * B (ix2 k j) := by
  simp only [matmul]
  rw [Ideal.matmul_constant_zero_apply, ← Equiv.sum_comp (contrEquiv1 dot_S1024x7_S7x256_S1024x256_1_0_0_1_n_n 7 rfl rfl).symm]
  refine Finset.sum_congr rfl fun k _ => ?_
  have hk := contrEquiv1_symm_val dot_S1024x7_S7x256_S1024x256_1_0_0_1_n_n 7 rfl rfl k
  have el : dot_S1024x7_S7x256_S1024x256_1_0_0_1_n_n.lhsIdx (ix2 p j) ((contrEquiv1 dot_S1024x7_S7x256_S1024x256_1_0_0_1_n_n 7 rfl rfl).symm k) = ix2 p k := funext fun a => Fin.ext (by
    match a with
    | ⟨0, _⟩ => exact lhsA_0 _ _
    | ⟨1, _⟩ => exact (lhsA_1 _ _).trans hk)
  have er : dot_S1024x7_S7x256_S1024x256_1_0_0_1_n_n.rhsIdx (ix2 p j) ((contrEquiv1 dot_S1024x7_S7x256_S1024x256_1_0_0_1_n_n 7 rfl rfl).symm k) = ix2 k j := funext fun a => Fin.ext (by
    match a with
    | ⟨0, _⟩ => exact (rhsA_0 _ _).trans hk
    | ⟨1, _⟩ => exact rhsA_1 _ _)
  rw [el, er]

/-! ### The product [1024, 256] · [256, 256] -/

theorem lhsB_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhsB_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhsB_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhsB_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The matrix unit's product into a zero accumulator, at entry (p, j): the sum over k of A(p, k) · B(k, j). -/
theorem matmulB_apply (A : FVec Ideal S1024x256 .bf16) (B : FVec Ideal S256x256 .bf16) (p : Fin 1024) (j : Fin 256) :
    matmul dot_S1024x256_S256x256_S1024x256_1_0_0_1_n_n none A B (constant S1024x256 .f32 0x00000000#32) (ix2 p j)
      = ∑ k : Fin 256, A (ix2 p k) * B (ix2 k j) := by
  simp only [matmul]
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p j) ((contrEquiv1 dot_S1024x256_S256x256_S1024x256_1_0_0_1_n_n 256 rfl rfl).symm k) = ix2 p k := funext fun a => Fin.ext (by
    match a with
    | ⟨0, _⟩ => exact lhsB_0 _ _
    | ⟨1, _⟩ => exact (lhsB_1 _ _).trans hk)
  have er : dot_S1024x256_S256x256_S1024x256_1_0_0_1_n_n.rhsIdx (ix2 p j) ((contrEquiv1 dot_S1024x256_S256x256_S1024x256_1_0_0_1_n_n 256 rfl rfl).symm k) = ix2 k j := funext fun a => Fin.ext (by
    match a with
    | ⟨0, _⟩ => exact (rhsB_0 _ _).trans hk
    | ⟨1, _⟩ => exact rhsB_1 _ _)
  rw [el, er]

/-! ### The product [1024, 256] · [256, 2695] -/

theorem lhsH_0 (i : S1024x2695.Idx) (q : dot_S1024x256_S256x2695_S1024x2695_1_0_0_1_n_n.contr.Idx) :
    (dot_S1024x256_S256x2695_S1024x2695_1_0_0_1_n_n.lhsIdx i q 0).val = (i 0).val := by
  unfold DotDims.lhsIdx
  rw [dif_neg (show ¬(0 : Fin S1024x256.rank) ∈ dot_S1024x256_S256x2695_S1024x2695_1_0_0_1_n_n.lhsBatch by decide), dif_pos (show (0 : Fin S1024x256.rank) ∈ dot_S1024x256_S256x2695_S1024x2695_1_0_0_1_n_n.lhsNonContracting by decide)]
  rfl
theorem lhsH_1 (i : S1024x2695.Idx) (q : dot_S1024x256_S256x2695_S1024x2695_1_0_0_1_n_n.contr.Idx) :
    (dot_S1024x256_S256x2695_S1024x2695_1_0_0_1_n_n.lhsIdx i q 1).val = (q ⟨0, by decide⟩).val :=
  dot_S1024x256_S256x2695_S1024x2695_1_0_0_1_n_n.lhsIdx_val_of_single rfl i q
theorem rhsH_0 (i : S1024x2695.Idx) (q : dot_S1024x256_S256x2695_S1024x2695_1_0_0_1_n_n.contr.Idx) :
    (dot_S1024x256_S256x2695_S1024x2695_1_0_0_1_n_n.rhsIdx i q 0).val = (q ⟨0, by decide⟩).val :=
  dot_S1024x256_S256x2695_S1024x2695_1_0_0_1_n_n.rhsIdx_val_of_single rfl i q
theorem rhsH_1 (i : S1024x2695.Idx) (q : dot_S1024x256_S256x2695_S1024x2695_1_0_0_1_n_n.contr.Idx) :
    (dot_S1024x256_S256x2695_S1024x2695_1_0_0_1_n_n.rhsIdx i q 1).val = (i 1).val := by
  unfold DotDims.rhsIdx
  rw [dif_neg (show ¬(1 : Fin S256x2695.rank) ∈ dot_S1024x256_S256x2695_S1024x2695_1_0_0_1_n_n.rhsBatch by decide), dif_pos (show (1 : Fin S256x2695.rank) ∈ dot_S1024x256_S256x2695_S1024x2695_1_0_0_1_n_n.rhsNonContracting by decide)]
  rfl

/-- The matrix unit's product into a zero accumulator, at entry (p, j): the sum over k of A(p, k) · B(k, j). -/
theorem matmulH_apply (A : FVec Ideal S1024x256 .bf16) (B : FVec Ideal S256x2695 .bf16) (p : Fin 1024) (j : Fin 2695) :
    matmul dot_S1024x256_S256x2695_S1024x2695_1_0_0_1_n_n none A B (constant S1024x2695 .f32 0x00000000#32) (ix2 p j)
      = ∑ k : Fin 256, A (ix2 p k) * B (ix2 k j) := by
  simp only [matmul]
  rw [Ideal.matmul_constant_zero_apply, ← Equiv.sum_comp (contrEquiv1 dot_S1024x256_S256x2695_S1024x2695_1_0_0_1_n_n 256 rfl rfl).symm]
  refine Finset.sum_congr rfl fun k _ => ?_
  have hk := contrEquiv1_symm_val dot_S1024x256_S256x2695_S1024x2695_1_0_0_1_n_n 256 rfl rfl k
  have el : dot_S1024x256_S256x2695_S1024x2695_1_0_0_1_n_n.lhsIdx (ix2 p j) ((contrEquiv1 dot_S1024x256_S256x2695_S1024x2695_1_0_0_1_n_n 256 rfl rfl).symm k) = ix2 p k := funext fun a => Fin.ext (by
    match a with
    | ⟨0, _⟩ => exact lhsH_0 _ _
    | ⟨1, _⟩ => exact (lhsH_1 _ _).trans hk)
  have er : dot_S1024x256_S256x2695_S1024x2695_1_0_0_1_n_n.rhsIdx (ix2 p j) ((contrEquiv1 dot_S1024x256_S256x2695_S1024x2695_1_0_0_1_n_n 256 rfl rfl).symm k) = ix2 k j := funext fun a => Fin.ext (by
    match a with
    | ⟨0, _⟩ => exact (rhsH_0 _ _).trans hk
    | ⟨1, _⟩ => exact rhsH_1 _ _)
  rw [el, er]

/-- A bias row [256] viewed [1, 256] and spread down the 1024 rows, at entry (p, j): the bias at j. -/
theorem bias256_apply (b : FVec Ideal S256 .f32) (p : Fin 1024) (j : Fin 256) :
    broadcastTo S1024x256 (shapeCast S1x256 b shapeCasts_S256_S1x256) broadcasts_S1x256_S1024x256 (ix2 p j) = b (ix1 j) := by
  refine (broadcastTo_apply _ broadcasts_S1x256_S1024x256 (ix2 p j) (ix2 (0 : Fin 1) j) (fun a => ?_)).trans ?_
  · match a with
    | ⟨0, _⟩ => show (0 : Nat) = if (1 : Nat) = 1 then 0 else _; rw [if_pos rfl]
    | ⟨1, _⟩ => show j.val = if (256 : Nat) = 1 then 0 else j.val; rw [if_neg (by decide)]
  · exact shapeCast_apply b shapeCasts_S256_S1x256 (ix2 (0 : Fin 1) j) (ix1 j)
      (by rw [Shape.rowMajor_val_one, Shape.rowMajor_val_two]; show j.val = 0 * 256 + j.val; omega)

/-- A bias row [2695] viewed [1, 2695] and spread down the 1024 rows, at entry (p, j): the bias at j. -/
theorem bias2695_apply (b : FVec Ideal S2695 .f32) (p : Fin 1024) (j : Fin 2695) :
    broadcastTo S1024x2695 (shapeCast S1x2695 b shapeCasts_S2695_S1x2695) broadcasts_S1x2695_S1024x2695 (ix2 p j) = b (ix1 j) := by
  refine (broadcastTo_apply _ broadcasts_S1x2695_S1024x2695 (ix2 p j) (ix2 (0 : Fin 1) j) (fun a => ?_)).trans ?_
  · match a with
    | ⟨0, _⟩ => show (0 : Nat) = if (1 : Nat) = 1 then 0 else _; rw [if_pos rfl]
    | ⟨1, _⟩ => show j.val = if (2695 : Nat) = 1 then 0 else j.val; rw [if_neg (by decide)]
  · exact shapeCast_apply b shapeCasts_S2695_S1x2695 (ix2 (0 : Fin 1) j) (ix1 j)
      (by rw [Shape.rowMajor_val_one, Shape.rowMajor_val_two]; show j.val = 0 * 2695 + j.val; omega)

/-! ## The body's stages, named -/

/-- The first layer on a tile: SiLU of x W⁰ + b⁰ (the input and the result narrowed to bf16, the identity here). -/
abbrev layerA (x : FVec Ideal S1024x7 .f32) (W : FVec Ideal S7x256 .bf16) (b : FVec Ideal S256 .f32) : FVec Ideal S1024x256 .bf16 :=
  truncf .bf16
    (mulf
      (addf (matmul dot_S1024x7_S7x256_S1024x256_1_0_0_1_n_n none (truncf .bf16 x bitsLt_bf16_f32) (shapeCast S7x256 W shapeCasts_S7x256_S7x256) (constant S1024x256 .f32 0x00000000#32))
        (broadcastTo S1024x256 (shapeCast S1x256 b shapeCasts_S256_S1x256) broadcasts_S1x256_S1024x256))
      (logistic
        (addf (matmul dot_S1024x7_S7x256_S1024x256_1_0_0_1_n_n none (truncf .bf16 x bitsLt_bf16_f32) (shapeCast S7x256 W shapeCasts_S7x256_S7x256) (constant S1024x256 .f32 0x00000000#32))
          (broadcastTo S1024x256 (shapeCast S1x256 b shapeCasts_S256_S1x256) broadcasts_S1x256_S1024x256))))
    bitsLt_bf16_f32

/-- A hidden layer on a tile: SiLU of a W + b. -/
abbrev layerB (a : FVec Ideal S1024x256 .bf16) (W : FVec Ideal S256x256 .bf16) (b : FVec Ideal S256 .f32) : FVec Ideal S1024x256 .bf16 :=
  truncf .bf16
    (mulf
      (addf (matmul dot_S1024x256_S256x256_S1024x256_1_0_0_1_n_n none a (shapeCast S256x256 W shapeCasts_S256x256_S256x256) (constant S1024x256 .f32 0x00000000#32))
        (broadcastTo S1024x256 (shapeCast S1x256 b shapeCasts_S256_S1x256) broadcasts_S1x256_S1024x256))
      (logistic
        (addf (matmul dot_S1024x256_S256x256_S1024x256_1_0_0_1_n_n none a (shapeCast S256x256 W shapeCasts_S256x256_S256x256) (constant S1024x256 .f32 0x00000000#32))
          (broadcastTo S1024x256 (shapeCast S1x256 b shapeCasts_S256_S1x256) broadcasts_S1x256_S1024x256))))
    bitsLt_bf16_f32

/-- The head layer on a tile: a Wʰ + bʰ. -/
abbrev layerH (a : FVec Ideal S1024x256 .bf16) (W : FVec Ideal S256x2695 .bf16) (b : FVec Ideal S2695 .f32) : FVec Ideal S1024x2695 .f32 :=
  addf (matmul dot_S1024x256_S256x2695_S1024x2695_1_0_0_1_n_n none a (shapeCast S256x2695 W shapeCasts_S256x2695_S256x2695) (constant S1024x2695 .f32 0x00000000#32))
    (broadcastTo S1024x2695 (shapeCast S1x2695 b shapeCasts_S2695_S1x2695) broadcasts_S1x2695_S1024x2695)

/-- The scale matrix of a tile from its three profile columns: ones, then 1 − s, s and the neck profile each spread over
    490 columns. -/
abbrev scalePieces (s l n : FVec Ideal S1024x1 .f32) : List ((sh : Shape) × (sh.Idx → Ideal .f32)) :=
  [⟨S1024x1225, broadcast S1024x1225 (Scalar.ofBits (F := Ideal) .f32 0x3F800000#32)⟩,
   ⟨S1024x490, broadcastTo S1024x490 (shapeCast S1024x1 l shapeCasts_S1024x1_S1024x1) broadcasts_S1024x1_S1024x490⟩,
   ⟨S1024x490, broadcastTo S1024x490 (shapeCast S1024x1 s shapeCasts_S1024x1_S1024x1) broadcasts_S1024x1_S1024x490⟩,
   ⟨S1024x490, broadcastTo S1024x490 (shapeCast S1024x1 n shapeCasts_S1024x1_S1024x1) broadcasts_S1024x1_S1024x490⟩]
abbrev scaleTile (s l n : FVec Ideal S1024x1 .f32) : FVec Ideal S1024x2695 .f32 :=
  concatenate S1024x2695 1 (scalePieces s l n) concatenates_S1024x1225_S1024x490_S1024x490_S1024x490_S1024x2695_d1

/-- The body's payloads are these stages composed. -/
theorem pay6_eq (x0 : Vec Ideal S1024x7 .f32) (x1 : Vec Ideal S7x256 .bf16) (x2 : Vec Ideal S256 .f32) (x3 : Vec Ideal S256x256 .bf16) (x4 : Vec Ideal S256 .f32) :
    k0_pay6 (F := Ideal) x0 x1 x2 x3 x4 = layerB (layerA x0 x1 x2) x3 x4 := rfl

theorem pay1_eq (v8 v10 v18 : FVec Ideal S1024x1 .f32) (v39 : FVec Ideal S1024x256 .bf16) (v40 : Vec Ideal S256x256 .bf16) (v43 : Vec Ideal S256 .f32)
    (v50 : Vec Ideal S256x256 .bf16) (v53 : Vec Ideal S256 .f32) (v60 : Vec Ideal S256x2695 .bf16) (v63 : Vec Ideal S2695 .f32) :
    k0_pay1 (F := Ideal) v8 v10 v18 v39 v40 v43 v50 v53 v60 v63
      = mulf (layerH (layerB (layerB v39 v40 v43) v50 v53) v60 v63) (scaleTile v8 v10 v18) := rfl

/-! ## Each stage at an entry -/

theorem layerA_apply (x : FVec Ideal S1024x7 .f32) (W : FVec Ideal S7x256 .bf16) (b : FVec Ideal S256 .f32) (p : Fin 1024) (j : Fin 256) :
    layerA x W b (ix2 p j) = act (fun k => x (ix2 p k)) W b j := by
  show silu (matmul dot_S1024x7_S7x256_S1024x256_1_0_0_1_n_n none (truncf .bf16 x bitsLt_bf16_f32) (shapeCast S7x256 W shapeCasts_S7x256_S7x256) (constant S1024x256 .f32 0x00000000#32) (ix2 p j)
      + broadcastTo S1024x256 (shapeCast S1x256 b shapeCasts_S256_S1x256) broadcasts_S1x256_S1024x256 (ix2 p j)) = _
  rw [shapeCast_self, matmulA_apply, bias256_apply]
  rfl

theorem layerB_apply (a : FVec Ideal S1024x256 .bf16) (W : FVec Ideal S256x256 .bf16) (b : FVec Ideal S256 .f32) (p : Fin 1024) (j : Fin 256) :
    layerB a W b (ix2 p j) = act (fun k => a (ix2 p k)) W b j := by
  show silu (matmul dot_S1024x256_S256x256_S1024x256_1_0_0_1_n_n none a (shapeCast S256x256 W shapeCasts_S256x256_S256x256) (constant S1024x256 .f32 0x00000000#32) (ix2 p j)
      + broadcastTo S1024x256 (shapeCast S1x256 b shapeCasts_S256_S1x256) broadcasts_S1x256_S1024x256 (ix2 p j)) = _
  rw [shapeCast_self, matmulB_apply, bias256_apply]
  rfl

theorem layerH_apply (a : FVec Ideal S1024x256 .bf16) (W : FVec Ideal S256x2695 .bf16) (b : FVec Ideal S2695 .f32) (p : Fin 1024) (j : Fin 2695) :
    layerH a W b (ix2 p j) = dense (fun k => a (ix2 p k)) W b j := by
  show matmul dot_S1024x256_S256x2695_S1024x2695_1_0_0_1_n_n none a (shapeCast S256x2695 W shapeCasts_S256x2695_S256x2695) (constant S1024x2695 .f32 0x00000000#32) (ix2 p j)
      + broadcastTo S1024x2695 (shapeCast S1x2695 b shapeCasts_S2695_S1x2695) broadcasts_S1x2695_S1024x2695 (ix2 p j) = _
  rw [shapeCast_self, matmulH_apply, bias2695_apply]
  rfl

/-- A column [1024, 1] spread over 490 columns, at entry (p, q): the column at row p. -/
theorem spread_apply (v : FVec Ideal S1024x1 .f32) (p : Fin 1024) (q : Fin 490) :
    broadcastTo S1024x490 (shapeCast S1024x1 v shapeCasts_S1024x1_S1024x1) broadcasts_S1024x1_S1024x490 (ix2 p q) = v (ix2 p (0 : Fin 1)) := by
  rw [shapeCast_self]
  exact broadcastTo_apply v broadcasts_S1024x1_S1024x490 (ix2 p q) (ix2 p (0 : Fin 1)) (fun a => by
    match a with
    | ⟨0, _⟩ => show p.val = if (1024 : Nat) = 1 then 0 else p.val; rw [if_neg (by decide)]
    | ⟨1, _⟩ => show (0 : Nat) = if (1 : Nat) = 1 then 0 else _; rw [if_pos rfl])

/-- The scale matrix at entry (p, q): by the span of columns that holds q. -/
theorem scaleTile_apply (s l n : FVec Ideal S1024x1 .f32) (p : Fin 1024) (q : Fin 2695) :
    scaleTile s l n (ix2 p q)
      = if q.val < 1225 then w1 else if q.val < 1715 then l (ix2 p (0 : Fin 1)) else if q.val < 2205 then s (ix2 p (0 : Fin 1)) else n (ix2 p (0 : Fin 1)) := by
  have hq := q.isLt
  by_cases h1 : q.val < 1225
  · rw [if_pos h1]
    exact cols_piece (scalePieces s l n) concatenates_S1024x1225_S1024x490_S1024x490_S1024x490_S1024x2695_d1 p q 0 (by show (0 : Nat) < 4; omega) 1225 _ rfl 0 rfl (Nat.zero_le _) h1
  · rw [if_neg h1]
    by_cases h2 : q.val < 1715
    · rw [if_pos h2]
      refine (cols_piece (scalePieces s l n) concatenates_S1024x1225_S1024x490_S1024x490_S1024x490_S1024x2695_d1 p q 1 (by show (1 : Nat) < 4; omega) 490 _ rfl 1225 rfl (by omega) (by omega)).trans ?_
      exact spread_apply l p _
    · rw [if_neg h2]
      by_cases h3 : q.val < 2205
      · rw [if_pos h3]
        refine (cols_piece (scalePieces s l n) concatenates_S1024x1225_S1024x490_S1024x490_S1024x490_S1024x2695_d1 p q 2 (by show (2 : Nat) < 4; omega) 490 _ rfl 1715 rfl (by omega) (by omega)).trans ?_
        exact spread_apply s p _
      · rw [if_neg h3]
        refine (cols_piece (scalePieces s l n) concatenates_S1024x1225_S1024x490_S1024x490_S1024x490_S1024x2695_d1 p q 3 (by show (3 : Nat) < 4; omega) 490 _ rfl 2205 rfl (by omega) (by omega)).trans ?_
        exact spread_apply n p _

/-! ## The three profile columns of a tile -/

/-- Column 0 of the tile's input block, as the body slices it. -/
theorem pay2_apply (x0 : Vec Ideal S1024x7 .f32) (p : Fin 1024) :
    k0_pay2 (F := Ideal) x0 (ix2 p (0 : Fin 1)) = x0 (ix2 p (0 : Fin 7)) := by
  unfold k0_pay2
  exact extractStridedSlice_apply ![0, 0] x0 slices_S1024x7_o0_0_S1024x1 (ix2 p (0 : Fin 1)) (ix2 p (0 : Fin 7)) (fun a => by
    match a with
    | ⟨0, _⟩ => show p.val = 0 + p.val; omega
    | ⟨1, _⟩ => show (0 : Nat) = 0 + 0; rfl)

theorem pay3_apply (x0 : Vec Ideal S1024x7 .f32) (p : Fin 1024) :
    k0_pay3 (F := Ideal) x0 (ix2 p (0 : Fin 1)) = gate (x0 (ix2 p (0 : Fin 7))) := by
  show gate (k0_pay2 (F := Ideal) x0 (ix2 p (0 : Fin 1))) = _
  rw [pay2_apply]

theorem pay4_apply (x0 : Vec Ideal S1024x7 .f32) (p : Fin 1024) :
    k0_pay4 (F := Ideal) x0 (ix2 p (0 : Fin 1)) = leftProf (x0 (ix2 p (0 : Fin 7))) := by
  show w1 - k0_pay3 (F := Ideal) x0 (ix2 p (0 : Fin 1)) = _
  rw [pay3_apply]
  rfl

theorem pay5_apply (x0 : Vec Ideal S1024x7 .f32) (p : Fin 1024) :
    k0_pay5 (F := Ideal) x0 (ix2 p (0 : Fin 1)) = neckProf (x0 (ix2 p (0 : Fin 7))) := by
  show neckProf (k0_pay2 (F := Ideal) x0 (ix2 p (0 : Fin 1))) = _
  rw [pay2_apply]

/-! ## The stored tile at an entry -/

/-- THE TILE: entry (p, q) of what the body stores is column q of the row function at row p of the input block. -/
theorem tile_apply (x0 : Vec Ideal S1024x7 .f32) (x1 : Vec Ideal S7x256 .bf16) (x2 : Vec Ideal S256 .f32) (x3 : Vec Ideal S256x256 .bf16) (x4 : Vec Ideal S256 .f32)
    (x5 : Vec Ideal S256x256 .bf16) (x6 : Vec Ideal S256 .f32) (x7 : Vec Ideal S256x256 .bf16) (x8 : Vec Ideal S256 .f32) (x9 : Vec Ideal S256x2695 .bf16) (x10 : Vec Ideal S2695 .f32)
    (p : Fin 1024) (q : Fin 2695) :
    k0_pay1 (F := Ideal) (k0_pay3 x0) (k0_pay4 x0) (k0_pay5 x0) (k0_pay6 x0 x1 x2 x3 x4) x5 x6 x7 x8 x9 x10 (ix2 p q)
      = outRow x1 x2 x3 x4 x5 x6 x7 x8 x9 x10 (fun k => x0 (ix2 p k)) q := by
  rw [pay1_eq, pay6_eq]
  show layerH (layerB (layerB (layerB (layerA x0 x1 x2) x3 x4) x5 x6) x7 x8) x9 x10 (ix2 p q)
      * scaleTile (k0_pay3 x0) (k0_pay4 x0) (k0_pay5 x0) (ix2 p q) = _
  rw [layerH_apply, scaleTile_apply, pay3_apply, pay4_apply, pay5_apply]
  simp only [layerB_apply, layerA_apply]
  rfl

end Cert.KernelIdeal.Pay

end
-- ==== Proof.KerValue.lean ====
/-
  The idealized kernel's run, read as values.

  Grid point t stages rows 1024 t … 1024 t + 1023 of the input, every weight whole (the host's copies narrowed to bf16 are the
  arguments themselves on extended reals), and writes back tile t of the [65536, 2695] result, whose entry (p, q) is by
  Proof/KerPayload.lean the row function at row p of the staged block: so what point t writes back is block t of ONE array, the
  row function applied to every row of the input.  The 64 tiles cover that array, so it is what the region leaves; the
  reshape after the region reads it at column 35 h + o for entry (h, o) of a row.
-/
import proofs.«105025_j16518444220506_1_alg».proof.Proof.Gen.KernelIdeal.Frame
import proofs.«105025_j16518444220506_1_alg».proof.Proof.KerPayload
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen Cert.HeadsSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a; rfl

/-! ## Where each window's block lies -/

/-- The input's and the output's windows move one tile of 1024 rows per grid point; every weight's window stays on its one block. -/
theorem idx0 : ∀ t : Fin cfg0.N, win0_0.index t (0 : Fin 2) = t.val ∧ win0_0.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 1) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 1) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)

/-! ## The weights as the region finds them -/

theorem V_main_v0 (c : Dev nD) : (V m c main_v0 : S7x256.Idx → EReal) = m ((c : Thread nD τ).loc main_arg1) := by
  show StableHlo.after hostOps0 (fun b => m (c, b)) (Proc.devRef .tc main_v0) = _
  after_results
  rfl
theorem V_main_v1 (c : Dev nD) : (V m c main_v1 : S256x256.Idx → EReal) = m ((c : Thread nD τ).loc main_arg3) := by
  show StableHlo.after hostOps0 (fun b => m (c, b)) (Proc.devRef .tc main_v1) = _
  after_results
  rfl
theorem V_main_v2 (c : Dev nD) : (V m c main_v2 : S256x256.Idx → EReal) = m ((c : Thread nD τ).loc main_arg5) := by
  show StableHlo.after hostOps0 (fun b => m (c, b)) (Proc.devRef .tc main_v2) = _
  after_results
  rfl
theorem V_main_v3 (c : Dev nD) : (V m c main_v3 : S256x256.Idx → EReal) = m ((c : Thread nD τ).loc main_arg7) := by
  show StableHlo.after hostOps0 (fun b => m (c, b)) (Proc.devRef .tc main_v3) = _
  after_results
  rfl
theorem V_main_v4 (c : Dev nD) : (V m c main_v4 : S256x2695.Idx → EReal) = m ((c : Thread nD τ).loc main_arg9) := by
  show StableHlo.after hostOps0 (fun b => m (c, b)) (Proc.devRef .tc main_v4) = _
  after_results
  rfl

theorem iblk1_eq (c : Dev nD) (t : Fin cfg0.N) : (iblk m c 1 t : Vec Ideal S7x256 .bf16) = m ((c : Thread nD τ).loc main_arg1) := by
  obtain ⟨e0, e1⟩ := idx1 t
  funext x
  show V m c main_v0 (((cfg0.win 1).blk t).view.emb x) = _
  rw [V_main_v0]
  refine congrArg (m ((c : Thread nD τ).loc main_arg1)) (funext fun a => Fin.ext ?_)
  match a with
  | ⟨0, _⟩ => show win0_1.index t (0 : Fin 2) * 7 + 1 * (x 0).val = (x 0).val; rw [e0]; omega
  | ⟨1, _⟩ => show win0_1.index t (1 : Fin 2) * 256 + 1 * (x 1).val = (x 1).val; rw [e1]; omega
theorem iblk2_eq (c : Dev nD) (t : Fin cfg0.N) : (iblk m c 2 t : Vec Ideal S256 .f32) = m ((c : Thread nD τ).loc main_arg2) := by
  have e0 := idx2 t
  funext x
  show V m c main_arg2 (((cfg0.win 2).blk t).view.emb x) = _
  rw [V_main_arg2]
  refine congrArg (m ((c : Thread nD τ).loc main_arg2)) (funext fun a => Fin.ext ?_)
  match a with
  | ⟨0, _⟩ => show win0_2.index t (0 : Fin 1) * 256 + 1 * (x 0).val = (x 0).val; rw [e0]; omega
theorem iblk3_eq (c : Dev nD) (t : Fin cfg0.N) : (iblk m c 3 t : Vec Ideal S256x256 .bf16) = m ((c : Thread nD τ).loc main_arg3) := by
  obtain ⟨e0, e1⟩ := idx3 t
  funext x
  show V m c main_v1 (((cfg0.win 3).blk t).view.emb x) = _
  rw [V_main_v1]
  refine congrArg (m ((c : Thread nD τ).loc main_arg3)) (funext fun a => Fin.ext ?_)
  match a with
  | ⟨0, _⟩ => show win0_3.index t (0 : Fin 2) * 256 + 1 * (x 0).val = (x 0).val; rw [e0]; omega
  | ⟨1, _⟩ => show win0_3.index t (1 : Fin 2) * 256 + 1 * (x 1).val = (x 1).val; rw [e1]; omega
theorem iblk4_eq (c : Dev nD) (t : Fin cfg0.N) : (iblk m c 4 t : Vec Ideal S256 .f32) = m ((c : Thread nD τ).loc main_arg4) := by
  have e0 := idx4 t
  funext x
  show V m c main_arg4 (((cfg0.win 4).blk t).view.emb x) = _
  rw [V_main_arg4]
  refine congrArg (m ((c : Thread nD τ).loc main_arg4)) (funext fun a => Fin.ext ?_)
  match a with
  | ⟨0, _⟩ => show win0_4.index t (0 : Fin 1) * 256 + 1 * (x 0).val = (x 0).val; rw [e0]; omega
theorem iblk5_eq (c : Dev nD) (t : Fin cfg0.N) : (iblk m c 5 t : Vec Ideal S256x256 .bf16) = m ((c : Thread nD τ).loc main_arg5) := by
  obtain ⟨e0, e1⟩ := idx5 t
  funext x
  show V m c main_v2 (((cfg0.win 5).blk t).view.emb x) = _
  rw [V_main_v2]
  refine congrArg (m ((c : Thread nD τ).loc main_arg5)) (funext fun a => Fin.ext ?_)
  match a with
  | ⟨0, _⟩ => show win0_5.index t (0 : Fin 2) * 256 + 1 * (x 0).val = (x 0).val; rw [e0]; omega
  | ⟨1, _⟩ => show win0_5.index t (1 : Fin 2) * 256 + 1 * (x 1).val = (x 1).val; rw [e1]; omega
theorem iblk6_eq (c : Dev nD) (t : Fin cfg0.N) : (iblk m c 6 t : Vec Ideal S256 .f32) = m ((c : Thread nD τ).loc main_arg6) := by
  have e0 := idx6 t
  funext x
  show V m c main_arg6 (((cfg0.win 6).blk t).view.emb x) = _
  rw [V_main_arg6]
  refine congrArg (m ((c : Thread nD τ).loc main_arg6)) (funext fun a => Fin.ext ?_)
  match a with
  | ⟨0, _⟩ => show win0_6.index t (0 : Fin 1) * 256 + 1 * (x 0).val = (x 0).val; rw [e0]; omega
theorem iblk7_eq (c : Dev nD) (t : Fin cfg0.N) : (iblk m c 7 t : Vec Ideal S256x256 .bf16) = m ((c : Thread nD τ).loc main_arg7) := by
  obtain ⟨e0, e1⟩ := idx7 t
  funext x
  show V m c main_v3 (((cfg0.win 7).blk t).view.emb x) = _
  rw [V_main_v3]
  refine congrArg (m ((c : Thread nD τ).loc main_arg7)) (funext fun a => Fin.ext ?_)
  match a with
  | ⟨0, _⟩ => show win0_7.index t (0 : Fin 2) * 256 + 1 * (x 0).val = (x 0).val; rw [e0]; omega
  | ⟨1, _⟩ => show win0_7.index t (1 : Fin 2) * 256 + 1 * (x 1).val = (x 1).val; rw [e1]; omega
theorem iblk8_eq (c : Dev nD) (t : Fin cfg0.N) : (iblk m c 8 t : Vec Ideal S256 .f32) = m ((c : Thread nD τ).loc main_arg8) := by
  have e0 := idx8 t
  funext x
  show V m c main_arg8 (((cfg0.win 8).blk t).view.emb x) = _
  rw [V_main_arg8]
  refine congrArg (m ((c : Thread nD τ).loc main_arg8)) (funext fun a => Fin.ext ?_)
  match a with
  | ⟨0, _⟩ => show win0_8.index t (0 : Fin 1) * 256 + 1 * (x 0).val = (x 0).val; rw [e0]; omega
theorem iblk9_eq (c : Dev nD) (t : Fin cfg0.N) : (iblk m c 9 t : Vec Ideal S256x2695 .bf16) = m ((c : Thread nD τ).loc main_arg9) := by
  obtain ⟨e0, e1⟩ := idx9 t
  funext x
  show V m c main_v4 (((cfg0.win 9).blk t).view.emb x) = _
  rw [V_main_v4]
  refine congrArg (m ((c : Thread nD τ).loc main_arg9)) (funext fun a => Fin.ext ?_)
  match a with
  | ⟨0, _⟩ => show win0_9.index t (0 : Fin 2) * 256 + 1 * (x 0).val = (x 0).val; rw [e0]; omega
  | ⟨1, _⟩ => show win0_9.index t (1 : Fin 2) * 2695 + 1 * (x 1).val = (x 1).val; rw [e1]; omega
theorem iblk10_eq (c : Dev nD) (t : Fin cfg0.N) : (iblk m c 10 t : Vec Ideal S2695 .f32) = m ((c : Thread nD τ).loc main_arg10) := by
  have e0 := idx10 t
  funext x
  show V m c main_arg10 (((cfg0.win 10).blk t).view.emb x) = _
  rw [V_main_arg10]
  refine congrArg (m ((c : Thread nD τ).loc main_arg10)) (funext fun a => Fin.ext ?_)
  match a with
  | ⟨0, _⟩ => show win0_10.index t (0 : Fin 1) * 2695 + 1 * (x 0).val = (x 0).val; rw [e0]; omega

/-- Row p of the input block at point t is row 1024 t + p of the input. -/
theorem iblk0_apply (c : Dev nD) (t : Fin cfg0.N) (p : Fin 1024) (k : Fin 7) (r : Fin 65536) (h0 : r.val = t.val * 1024 + p.val) :
    (iblk m c 0 t : Vec Ideal S1024x7 .f32) (ix2 p k) = m ((c : Thread nD τ).loc main_arg0) (ix2 r k) := by
  obtain ⟨e0, e1⟩ := idx0 t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = r.val; rw [e0, h0]; omega
  | ⟨1, _⟩ => show win0_0.index t (1 : Fin 2) * 7 + 1 * k.val = k.val; rw [e1]; omega

/-! ## The result as one array, and the tile a point writes back -/

/-- The [65536, 2695] result of device c: the row function on every row of the input. -/
abbrev flat (c : Dev nD) : S65536x2695.Idx → EReal :=
  outFlat (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg0))

/-- Entry y of the tile stored at point t is the result array at row 1024 t + y₀, column y₁. -/
theorem tile_eq (c : Dev nD) (t : Fin cfg0.N) (y : S1024x2695.Idx) (i : S65536x2695.Idx)
    (h0 : (i 0).val = t.val * 1024 + (y 0).val) (h1 : (i 1).val = (y 1).val) :
    k0_pay1 (F := Ideal) (k0_pay3 (iblk m c 0 t)) (k0_pay4 (iblk m c 0 t)) (k0_pay5 (iblk m c 0 t)) (k0_pay6 (iblk m c 0 t) (iblk m c 1 t) (iblk m c 2 t) (iblk m c 3 t) (iblk m c 4 t)) (iblk m c 5 t) (iblk m c 6 t) (iblk m c 7 t) (iblk m c 8 t) (iblk m c 9 t) (iblk m c 10 t) y = flat m c i := by
  obtain ⟨p, q, rfl⟩ : ∃ (p : Fin 1024) (q : Fin 2695), y = ix2 p q := ⟨y 0, y 1, eq_ix2 y⟩
  obtain ⟨r, j, rfl⟩ : ∃ (r : Fin 65536) (j : Fin 2695), i = ix2 r j := ⟨i 0, i 1, eq_ix2 i⟩
  have h0' : r.val = t.val * 1024 + p.val := h0
  obtain rfl : j = q := Fin.ext h1
  refine (Pay.tile_apply (iblk m c 0 t) (iblk m c 1 t) (iblk m c 2 t) (iblk m c 3 t) (iblk m c 4 t) (iblk m c 5 t) (iblk m c 6 t) (iblk m c 7 t) (iblk m c 8 t) (iblk m c 9 t) (iblk m c 10 t) p j).trans ?_
  rw [iblk1_eq, iblk2_eq, iblk3_eq, iblk4_eq, iblk5_eq, iblk6_eq, iblk7_eq, iblk8_eq, iblk9_eq, iblk10_eq]
  have hx : (fun k : Fin 7 => (iblk m c 0 t : Vec Ideal S1024x7 .f32) (ix2 p k)) = fun k => m ((c : Thread nD τ).loc main_arg0) (ix2 r k) :=
    funext fun k => iblk0_apply m c t p k r h0'
  rw [hx]
  rfl

/-- WHAT POINT t WRITES BACK is block t of the result array. -/
theorem flushed_eq (c : Dev nD) (t : Fin cfg0.N) :
    (dats m 0 c).flushed 11 t = ((cfg0.win 11).blk t).view.read (Elt Ideal) (flat m c) := by
  show (cfg0.win 11).cut (grid0.coords t) ((dats m 0 c).after 11 t) = _
  rw [after0_11]
  unfold out0_11
  rw [View.canon_unit_zero hz]
  simp only [View.ld_unit_zero (S := S1024x7) hz, View.ld_unit_zero (S := S7x256) hz, View.ld_unit_zero (S := S256) hz1,
    View.ld_unit_zero (S := S256x256) hz, View.ld_unit_zero (S := S256x2695) hz, View.ld_unit_zero (S := S2695) hz1]
  obtain ⟨e0, e1⟩ := idx11 t
  funext y
  show k0_pay1 (F := Ideal) (k0_pay3 (iblk m c 0 t)) (k0_pay4 (iblk m c 0 t)) (k0_pay5 (iblk m c 0 t)) (k0_pay6 (iblk m c 0 t) (iblk m c 1 t) (iblk m c 2 t) (iblk m c 3 t) (iblk m c 4 t)) (iblk m c 5 t) (iblk m c 6 t) (iblk m c 7 t) (iblk m c 8 t) (iblk m c 9 t) (iblk m c 10 t) y = flat m c (((cfg0.win 11).blk t).view.emb y)
  refine tile_eq m c t y _ ?_ ?_
  · show win0_11.index t (0 : Fin 2) * 1024 + 1 * (y 0).val = t.val * 1024 + (y 0).val; rw [e0]; omega
  · show win0_11.index t (1 : Fin 2) * 2695 + 1 * (y 1).val = (y 1).val; rw [e1]; omega

/-- An index of the result array is in point t's block iff each coordinate is in the block's range on its axis. -/
theorem mem_blk (t : Fin cfg0.N) (i : S65536x2695.Idx) :
    i ∈ ((cfg0.win 11).blk t).view.set ↔ ∀ a : Fin 2, win0_11.index t a * S1024x2695.size a ≤ (i a).val ∧ (i a).val < win0_11.index t a * S1024x2695.size a + S1024x2695.size a := by
  show i ∈ ((View.whole main_v5).slice (win0_11.rect t)).set ↔ _
  rw [View.set_slice_whole, Rect.mem_set_unit]
  exact Iff.rfl

/-- Row r lies in the tile of point r / 1024: the 64 tiles cover the array. -/
theorem cover (i : S65536x2695.Idx) : ∃ t : Fin cfg0.N, (cfg0.win 11).flush t = true ∧ i ∈ ((cfg0.win 11).blk t).view.set := by
  have hi0 : (i 0).val < 65536 := (i 0).isLt
  have hi1 : (i 1).val < 2695 := (i 1).isLt
  have hN : cfg0.N = 64 := N_0
  obtain ⟨t, ht⟩ : ∃ t : Fin cfg0.N, t.val = (i 0).val / 1024 := ⟨⟨(i 0).val / 1024, by rw [hN]; omega⟩, rfl⟩
  obtain ⟨e0, e1⟩ := idx11 t
  refine ⟨t, flush0_11 t, ?_⟩
  rw [mem_blk]
  intro a
  match a with
  | ⟨0, _⟩ => show win0_11.index t (0 : Fin 2) * 1024 ≤ (i 0).val ∧ (i 0).val < win0_11.index t (0 : Fin 2) * 1024 + 1024; rw [e0, ht]; omega
  | ⟨1, _⟩ => show win0_11.index t (1 : Fin 2) * 2695 ≤ (i 1).val ∧ (i 1).val < win0_11.index t (1 : Fin 2) * 2695 + 2695; rw [e1]; omega

/-- THE ARRAY the region leaves is the result array. -/
theorem final (c : Dev nD) : (dats m 0 c).arrAt 11 cfg0.N = flat m c :=
  (dats m 0 c).arrAt_eq_of_cover 11 (flat m c) (fun t _ => flushed_eq m c t) cover

/-! ## The reshape after the region, and the run -/

/-- A [65536, 2695] array viewed [65536, 77, 35]: entry (r, h, o) is column 35 h + o of row r. -/
theorem reshape_flat (A : S65536x2695.Idx → EReal) :
    shapeCast S65536x77x35 A shapeCasts_S65536x2695_S65536x77x35 = fun i => A (ix2 (i 0) (col (i 1) (i 2))) := by
  funext i
  obtain ⟨r, h, o, rfl⟩ : ∃ (r : Fin 65536) (h : Fin 77) (o : Fin 35), i = ix3 r h o := ⟨i 0, i 1, i 2, eq_ix3 i⟩
  have h0 := r.isLt
  have h1 := h.isLt
  have h2 := o.isLt
  refine shapeCast_apply A shapeCasts_S65536x2695_S65536x77x35 (ix3 r h o) (ix2 r (col h o)) ?_
  rw [Shape.rowMajor_val_two, Shape.rowMajor_val_three]
  show r.val * 2695 + (h.val * 35 + o.val) = (r.val * 77 + h.val) * 35 + o.val
  omega

/-- The program's result: the [65536, 77, 35] view of the result array. -/
theorem tail_eq (c : Dev nD) :
    Pipeline.afterTail₀ cfgs (dats m) 0 (V0 m) [hostOps1] c main_v6
      = out3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg0)) := by
  have hw : Pipeline.withArrays (cfgs 0).spec c (V0 m c) (fun w => (dats m 0 c).arrAt w (cfgs 0).N) (Proc.devRef .tc main_v5) = flat m c :=
    (Pipeline.withArrays_arr spec0 launch0.win.arr_inj c _ _ 11).trans (final m c)
  unfold Pipeline.afterTail₀
  show StableHlo.after hostOps1 _ (Proc.devRef .tc main_v6) = _
  after_results
  show shapeCast S65536x77x35 (Pipeline.withArrays (cfgs 0).spec c (V0 m c) (fun w => (dats m 0 c).arrAt w (cfgs 0).N) (Proc.devRef .tc main_v5))
      shapeCasts_S65536x2695_S65536x77x35 = _
  rw [hw, reshape_flat]
  rfl

/-- THE RUN, READ: every weakly fair execution of the idealized kernel program terminates with its result at the
    specification's array of the arguments, the arguments unchanged. -/
theorem run : θ_run defs (onTc (τ := τ) (main (F := Ideal))) ⟨m, fun _ => 0, ρ⟩ fun r => ∀ c : Dev nD,
      r.2.mem ((c.tc : Thread nD τ).loc main_v6) = out3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c),
      ((h c).1 8).trans (((dats m 0 c).arrAt_in 8 rfl _).trans ((A_eq m c 8).trans (V_main_arg8 m c))),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c)))⟩)
    (run_main m ρ)

end Cert.KernelIdeal.Hand

end
-- ==== Proof.RefValue.lean ====
/-
  The idealized reference, stage by stage, is the row function of Proof/Spec.lean.

  The reference computes the three profiles of λ = x[:, 0] on the whole batch, runs the four SiLU layers and the head layer as
  dot_generals with broadcast biases, reshapes the [B, 2695] heads to [B, 77, 35] and multiplies by the [B, 77] scale spread
  over the last axis.  Each stage is read at an index with the generated read-at-an-index lemmas; written here are the index
  identities between their composed index functions and plain coordinates, the host's expansion of the logistic function,
  its negation against the kernel's subtraction from zero, the four-piece concatenation of the scale, and the arithmetic
  that entry (h, o) of the reshaped row is column 35 h + o.
-/
import proofs.«105025_j16518444220506_1_alg».proof.Proof.Gen.ReferenceIdeal.Read
import proofs.«105025_j16518444220506_1_alg».proof.Proof.Spec
import proofs.«105025_j16518444220506_1_alg».proof.Proof.LibConcatCols
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.HeadsSpec Cert.LibConcatCols
open Idealize.ShloMosaic Idealize.ShloMosaic.ValueIdx

variable (x0 : (⟨S65536x7, .f32⟩ : BufTy).Contents (Elt Ideal)) (x1 : (⟨S7x256, .f32⟩ : BufTy).Contents (Elt Ideal)) (x2 : (⟨S256, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S256x256, .f32⟩ : BufTy).Contents (Elt Ideal)) (x8 : (⟨S256, .f32⟩ : BufTy).Contents (Elt Ideal)) (x9 : (⟨S256x2695, .f32⟩ : BufTy).Contents (Elt Ideal)) (x10 : (⟨S2695, .f32⟩ : BufTy).Contents (Elt Ideal))

/-! ## The profiles of λ -/

/-- λ of row r is entry (r, 0) of the input. -/
theorem lam_apply (r : Fin 65536) : val_main_v1 (F := Ideal) x0 (ix1 r) = x0 (ix2 r (0 : Fin 7)) := by
  rw [val_main_v1_apply, val_main_v0_apply]
  refine congrArg x0 (funext fun a => Fin.ext ?_)
  match a with
  | ⟨0, _⟩ => show r.val / 1 = r.val; omega
  | ⟨1, _⟩ => rfl

/-- s = σ(5 (λ − 0) / 0.15), the host's σ expanded into negate, exponential, add and divide. -/
theorem gate_apply (r : Fin 65536) : val_main_v13 (F := Ideal) x0 (ix1 r) = gate (x0 (ix2 r (0 : Fin 7))) := by
  rw [val_main_v13_apply, val_main_v12_apply, val_main_cst_3_apply, val_main_v11_apply, val_main_v10_apply, val_main_cst_2_apply,
    val_main_v9_apply, val_main_v8_apply, val_main_v7_apply, val_main_v5_apply, val_main_v4_apply, val_main_cst_0_apply,
    val_main_v3_apply, val_main_v2_apply, val_main_cst_apply, val_main_v6_apply, val_main_cst_1_apply, lam_apply]
  exact logistic_spelt _

/-- 1 − s. -/
theorem left_apply (r : Fin 65536) : val_main_v15 (F := Ideal) x0 (ix1 r) = leftProf (x0 (ix2 r (0 : Fin 7))) := by
  rw [val_main_v15_apply, val_main_v14_apply, val_main_cst_4_apply, gate_apply]
  rfl

/-- e^(−t²), t = (λ − 0) / 0.2, the host negating where the kernel subtracts from zero. -/
theorem neck_apply (r : Fin 65536) : val_main_v22 (F := Ideal) x0 (ix1 r) = neckProf (x0 (ix2 r (0 : Fin 7))) := by
  rw [val_main_v22_apply, val_main_v21_apply, val_main_v20_apply, val_main_v19_apply, val_main_v17_apply, val_main_v16_apply,
    val_main_cst_5_apply, val_main_v18_apply, val_main_cst_6_apply, lam_apply]
  exact neckProf_neg _

/-! ## The layers -/

theorem z1_apply (r : Fin 65536) (j : Fin 256) :
    val_main_v26 (F := Ideal) x0 x1 x2 (ix2 r j) = dense (fun k => x0 (ix2 r k)) x1 x2 j := by
  rw [val_main_v26_apply, val_main_v23_apply, val_main_v25_apply, val_main_v24_apply]
  have el : ∀ k : Fin 7, lidx_main_v23 (ix2 r j) k = ix2 r k := fun k => funext fun a => by
    match a with | ⟨0, _⟩ => rfl | ⟨1, _⟩ => rfl
  have er : ∀ k : Fin 7, ridx_main_v23 (ix2 r j) k = ix2 k j := fun k => funext fun a => by
    match a with | ⟨0, _⟩ => rfl | ⟨1, _⟩ => rfl
  have eb : idx_main_v24 (idx_main_v25 (ix2 r j)) = ix1 j := funext fun a => by
    match a with | ⟨0, _⟩ => rfl
  simp only [el, er, eb]
  rfl

theorem h1_apply (r : Fin 65536) (j : Fin 256) :
    val_main_v27 (F := Ideal) x0 x1 x2 (ix2 r j) = act (fun k => x0 (ix2 r k)) x1 x2 j := by
  rw [val_main_v27_apply, val_main_call0_v5_apply, val_main_call0_v4_apply, val_main_call0_cst_0_apply, val_main_call0_v3_apply,
    val_main_call0_v2_apply, val_main_call0_cst_apply, val_main_call0_v1_apply, val_main_call0_v0_apply, z1_apply]
  exact silu_spelt _

theorem z2_apply (r : Fin 65536) (j : Fin 256) :
    val_main_v31 (F := Ideal) x0 x1 x2 x3 x4 (ix2 r j) = dense (act (fun k => x0 (ix2 r k)) x1 x2) x3 x4 j := by
  rw [val_main_v31_apply, val_main_v28_apply, val_main_v30_apply, val_main_v29_apply]
  have el : ∀ k : Fin 256, lidx_main_v28 (ix2 r j) k = ix2 r k := fun k => funext fun a => by
    match a with | ⟨0, _⟩ => rfl | ⟨1, _⟩ => rfl
  have er : ∀ k : Fin 256, ridx_main_v28 (ix2 r j) k = ix2 k j := fun k => funext fun a => by
    match a with | ⟨0, _⟩ => rfl | ⟨1, _⟩ => rfl
  have eb : idx_main_v29 (idx_main_v30 (ix2 r j)) = ix1 j := funext fun a => by
    match a with | ⟨0, _⟩ => rfl
  simp only [el, er, eb, h1_apply]
  rfl

theorem h2_apply (r : Fin 65536) (j : Fin 256) :
    val_main_v32 (F := Ideal) x0 x1 x2 x3 x4 (ix2 r j) = act (act (fun k => x0 (ix2 r k)) x1 x2) x3 x4 j := by
  rw [val_main_v32_apply, val_main_call1_v5_apply, val_main_call1_v4_apply, val_main_call1_cst_0_apply, val_main_call1_v3_apply,
    val_main_call1_v2_apply, val_main_call1_cst_apply, val_main_call1_v1_apply, val_main_call1_v0_apply, z2_apply]
  exact silu_spelt _

theorem z3_apply (r : Fin 65536) (j : Fin 256) :
    val_main_v36 (F := Ideal) x0 x1 x2 x3 x4 x5 x6 (ix2 r j) = dense (act (act (fun k => x0 (ix2 r k)) x1 x2) x3 x4) x5 x6 j := by
  rw [val_main_v36_apply, val_main_v33_apply, val_main_v35_apply, val_main_v34_apply]
  have el : ∀ k : Fin 256, lidx_main_v33 (ix2 r j) k = ix2 r k := fun k => funext fun a => by
    match a with | ⟨0, _⟩ => rfl | ⟨1, _⟩ => rfl
  have er : ∀ k : Fin 256, ridx_main_v33 (ix2 r j) k = ix2 k j := fun k => funext fun a => by
    match a with | ⟨0, _⟩ => rfl | ⟨1, _⟩ => rfl
  have eb : idx_main_v34 (idx_main_v35 (ix2 r j)) = ix1 j := funext fun a => by
    match a with | ⟨0, _⟩ => rfl
  simp only [el, er, eb, h2_apply]
  rfl

theorem h3_apply (r : Fin 65536) (j : Fin 256) :
    val_main_v37 (F := Ideal) x0 x1 x2 x3 x4 x5 x6 (ix2 r j) = act (act (act (fun k => x0 (ix2 r k)) x1 x2) x3 x4) x5 x6 j := by
  rw [val_main_v37_apply, val_main_call2_v5_apply, val_main_call2_v4_apply, val_main_call2_cst_0_apply, val_main_call2_v3_apply,
    val_main_call2_v2_apply, val_main_call2_cst_apply, val_main_call2_v1_apply, val_main_call2_v0_apply, z3_apply]
  exact silu_spelt _

theorem z4_apply (r : Fin 65536) (j : Fin 256) :
    val_main_v41 (F := Ideal) x0 x1 x2 x3 x4 x5 x6 x7 x8 (ix2 r j) = dense (act (act (act (fun k => x0 (ix2 r k)) x1 x2) x3 x4) x5 x6) x7 x8 j := by
  rw [val_main_v41_apply, val_main_v38_apply, val_main_v40_apply, val_main_v39_apply]
  have el : ∀ k : Fin 256, lidx_main_v38 (ix2 r j) k = ix2 r k := fun k => funext fun a => by
    match a with | ⟨0, _⟩ => rfl | ⟨1, _⟩ => rfl
  have er : ∀ k : Fin 256, ridx_main_v38 (ix2 r j) k = ix2 k j := fun k => funext fun a => by
    match a with | ⟨0, _⟩ => rfl | ⟨1, _⟩ => rfl
  have eb : idx_main_v39 (idx_main_v40 (ix2 r j)) = ix1 j := funext fun a => by
    match a with | ⟨0, _⟩ => rfl
  simp only [el, er, eb, h3_apply]
  rfl

theorem h4_apply (r : Fin 65536) (j : Fin 256) :
    val_main_v42 (F := Ideal) x0 x1 x2 x3 x4 x5 x6 x7 x8 (ix2 r j) = act (act (act (act (fun k => x0 (ix2 r k)) x1 x2) x3 x4) x5 x6) x7 x8 j := by
  rw [val_main_v42_apply, val_main_call3_v5_apply, val_main_call3_v4_apply, val_main_call3_cst_0_apply, val_main_call3_v3_apply,
    val_main_call3_v2_apply, val_main_call3_cst_apply, val_main_call3_v1_apply, val_main_call3_v0_apply, z4_apply]
  exact silu_spelt _

theorem heads_apply (r : Fin 65536) (j : Fin 2695) :
    val_main_v46 (F := Ideal) x0 x1 x2 x3 x4 x5 x6 x7 x8 x9 x10 (ix2 r j) = heads x1 x2 x3 x4 x5 x6 x7 x8 x9 x10 (fun k => x0 (ix2 r k)) j := by
  rw [val_main_v46_apply, val_main_v43_apply, val_main_v45_apply, val_main_v44_apply]
  have el : ∀ k : Fin 256, lidx_main_v43 (ix2 r j) k = ix2 r k := fun k => funext fun a => by
    match a with | ⟨0, _⟩ => rfl | ⟨1, _⟩ => rfl
  have er : ∀ k : Fin 256, ridx_main_v43 (ix2 r j) k = ix2 k j := fun k => funext fun a => by
    match a with | ⟨0, _⟩ => rfl | ⟨1, _⟩ => rfl
  have eb : idx_main_v44 (idx_main_v45 (ix2 r j)) = ix1 j := funext fun a => by
    match a with | ⟨0, _⟩ => rfl
  simp only [el, er, eb, h4_apply]
  rfl

/-! ## The scale -/

/-- The four pieces the reference lays side by side: ones over the 35 local heads, then the three profiles over 14 heads each. -/
abbrev scalePieces : List ((sh : Shape) × (sh.Idx → Ideal .f32)) :=
  [⟨S65536x35, (val_main_v50 (F := Ideal))⟩, ⟨S65536x14, (val_main_v52 (F := Ideal) x0)⟩, ⟨S65536x14, (val_main_v54 (F := Ideal) x0)⟩,
   ⟨S65536x14, (val_main_v56 (F := Ideal) x0)⟩]

/-- A profile column spread over 14 heads reads the profile of the row. -/
theorem spreadIdx (r : Fin 65536) (q : Fin 14) (f : S65536x1.Idx → S65536.Idx) (g : S65536x14.Idx → S65536x1.Idx)
    (hf : ∀ i : S65536x1.Idx, (f i 0).val = (i 0).val) (hg : ∀ i : S65536x14.Idx, (g i 0).val = (i 0).val) :
    f (g (ix2 r q)) = ix1 r := funext fun a => Fin.ext (by
  match a with
  | ⟨0, _⟩ => exact (hf _).trans (hg _))

/-- The scale of head h of row r. -/
theorem headScale_apply (r : Fin 65536) (h : Fin 77) :
    val_main_v57 (F := Ideal) x0 (ix2 r h) = headScale (x0 (ix2 r (0 : Fin 7))) h.val := by
  show concatenate S65536x77 1 (scalePieces x0) concatenates_S65536x35_S65536x14_S65536x14_S65536x14_S65536x77_d1 (ix2 r h) = _
  unfold headScale
  have hh := h.isLt
  by_cases h1 : h.val < 35
  · rw [if_pos h1]
    refine (cols_piece (scalePieces x0) concatenates_S65536x35_S65536x14_S65536x14_S65536x14_S65536x77_d1 r h 0 (by show (0 : Nat) < 4; omega) 35 _ rfl 0 rfl (Nat.zero_le _) h1).trans ?_
    rw [val_main_v50_apply, val_main_v49_apply, val_main_v48_apply, val_main_cst_7_apply]
    rfl
  · rw [if_neg h1]
    by_cases h2 : h.val < 49
    · rw [if_pos h2]
      refine (cols_piece (scalePieces x0) concatenates_S65536x35_S65536x14_S65536x14_S65536x14_S65536x77_d1 r h 1 (by show (1 : Nat) < 4; omega) 14 _ rfl 35 rfl (by omega) (by omega)).trans ?_
      rw [val_main_v52_apply, val_main_v51_apply, spreadIdx r _ idx_main_v51 idx_main_v52 (fun _ => rfl) (fun _ => rfl)]
      exact left_apply x0 r
    · rw [if_neg h2]
      by_cases h3 : h.val < 63
      · rw [if_pos h3]
        refine (cols_piece (scalePieces x0) concatenates_S65536x35_S65536x14_S65536x14_S65536x14_S65536x77_d1 r h 2 (by show (2 : Nat) < 4; omega) 14 _ rfl 49 rfl (by omega) (by omega)).trans ?_
        rw [val_main_v54_apply, val_main_v53_apply, spreadIdx r _ idx_main_v53 idx_main_v54 (fun _ => rfl) (fun _ => rfl)]
        exact gate_apply x0 r
      · rw [if_neg h3]
        refine (cols_piece (scalePieces x0) concatenates_S65536x35_S65536x14_S65536x14_S65536x14_S65536x77_d1 r h 3 (by show (3 : Nat) < 4; omega) 14 _ rfl 63 rfl (by omega) (by omega)).trans ?_
        rw [val_main_v56_apply, val_main_v55_apply, spreadIdx r _ idx_main_v55 idx_main_v56 (fun _ => rfl) (fun _ => rfl)]
        exact neck_apply x0 r

/-! ## The result -/

/-- THE REFERENCE'S RESULT is the specification's [65536, 77, 35] array of the arguments. -/
theorem result_eq :
    val_main_v60 (F := Ideal) x0 x1 x2 x3 x4 x5 x6 x7 x8 x9 x10 = out3 x1 x2 x3 x4 x5 x6 x7 x8 x9 x10 x0 := by
  funext i
  obtain ⟨r, h, o, rfl⟩ : ∃ (r : Fin 65536) (h : Fin 77) (o : Fin 35), i = ix3 r h o := ⟨i 0, i 1, i 2, eq_ix3 i⟩
  have h0 := r.isLt
  have h1 := h.isLt
  have h2 := o.isLt
  rw [val_main_v60_apply, val_main_v47_apply, val_main_v59_apply, val_main_v58_apply]
  have e1 : idx_main_v47 (ix3 r h o) = ix2 r (col h o) := funext fun a => Fin.ext (by
    match a with
    | ⟨0, _⟩ => show ((r.val * 77 + h.val) * 35 + o.val) / 2695 = r.val; omega
    | ⟨1, _⟩ => show ((r.val * 77 + h.val) * 35 + o.val) % 2695 = h.val * 35 + o.val; omega)
  have e2 : idx_main_v58 (idx_main_v59 (ix3 r h o)) = ix2 r h := funext fun a => by
    match a with | ⟨0, _⟩ => rfl | ⟨1, _⟩ => rfl
  rw [e1, e2, heads_apply, headScale_apply]
  show _ = heads x1 x2 x3 x4 x5 x6 x7 x8 x9 x10 (fun k => x0 (ix2 r k)) (col h o)
      * scale (x0 (ix2 r (0 : Fin 7))) (h.val * 35 + o.val)
  rw [scale_of_head _ _ _ h2]
  rfl

end Cert.ReferenceIdeal.RefValue

end
-- ==== Proof.lean ====
/-
  The certificate: the Pallas kernel of a four-layer SiLU MLP with 77 scaled output heads against its jnp reference.

  Both programs compute, for every batch row, the row function of Proof/Spec.lean: four dense layers with SiLU, a dense head
  layer into 77 · 35 columns, each column scaled by a profile of the row's first input.  The kernel tiles the batch in 64
  blocks of 1024 rows, casts the matrix operands to bf16 (the identity on extended reals), uses the matrix unit into a zero
  accumulator (a plain sum) and tpu.logistic, builds the scale by laying four column blocks side by side, and reshapes on the
  host; the reference works on the whole batch with dot_generals, the logistic function expanded, and the scale built per
  head and spread over the head's 35 columns.  Proof/KerValue.lean reads the kernel's run (over Proof/KerPayload.lean, the
  body's store entry by entry) and Proof/RefValue.lean the reference's; no law beyond 0 − t = −t, the word of 1.0 being 1 and
  the arithmetic of column 35 h + o joins them, so the precondition is never opened.  The three frames are the generated
  ones (the reference's its generated run with the result dropped); the idealization rewrote nothing.
-/
import proofs.«105025_j16518444220506_1_alg».proof.Defs
import proofs.«105025_j16518444220506_1_alg».proof.Proof.Gen.Kernel
import proofs.«105025_j16518444220506_1_alg».proof.Proof.Gen.Kernel.Skeleton
import proofs.«105025_j16518444220506_1_alg».proof.Proof.Gen.Kernel.Launch
import proofs.«105025_j16518444220506_1_alg».proof.Proof.Gen.Kernel.Points
import proofs.«105025_j16518444220506_1_alg».proof.Proof.Gen.Kernel.Frame
import proofs.«105025_j16518444220506_1_alg».proof.Proof.Gen.KernelIdeal
import proofs.«105025_j16518444220506_1_alg».proof.Proof.Gen.KernelIdeal.Skeleton
import proofs.«105025_j16518444220506_1_alg».proof.Proof.Gen.KernelIdeal.Launch
import proofs.«105025_j16518444220506_1_alg».proof.Proof.Gen.KernelIdeal.Points
import proofs.«105025_j16518444220506_1_alg».proof.Proof.Gen.KernelIdeal.Frame
import proofs.«105025_j16518444220506_1_alg».proof.Proof.Gen.ReferenceIdeal
import proofs.«105025_j16518444220506_1_alg».proof.Proof.Gen.ReferenceIdeal.Run
import proofs.«105025_j16518444220506_1_alg».proof.Proof.Gen.ReferenceIdeal.Read
import proofs.«105025_j16518444220506_1_alg».proof.Proof.Gen.Pre_finite_inputs
import proofs.«105025_j16518444220506_1_alg».proof.Proof.KerValue
import proofs.«105025_j16518444220506_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The idealized reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both idealized programs end with the specification's array of those
    arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v60_eq, Cert.ReferenceIdeal.RefValue.result_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
